-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3x64 : Shape := ⟨3, ![50000, 3, 64]⟩
abbrev S800000x32 : Shape := ⟨2, ![800000, 32]⟩
abbrev S800000 : Shape := ⟨1, ![800000]⟩
abbrev S800000x3 : Shape := ⟨2, ![800000, 3]⟩
abbrev S2x800000 : Shape := ⟨2, ![2, 800000]⟩
abbrev S64x64 : Shape := ⟨2, ![64, 64]⟩
abbrev S64 : Shape := ⟨1, ![64]⟩
abbrev S64x192 : Shape := ⟨2, ![64, 192]⟩
abbrev S192 : Shape := ⟨1, ![192]⟩
abbrev S32x192 : Shape := ⟨2, ![32, 192]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3x64 : S_.BroadcastsInDim S50000x3x64 (![] : Fin 0 → Fin S50000x3x64.rank)
  reducesTo_S50000x3x64_S_d0_1_2 : S50000x3x64.ReducesTo [0, 1, 2] S_
  bcast_S_S800000x32 : S_.BroadcastsInDim S800000x32 (![] : Fin 0 → Fin S800000x32.rank)
  reducesTo_S800000x32_S_d0_1 : S800000x32.ReducesTo [0, 1] S_
  bcast_S_S800000 : S_.BroadcastsInDim S800000 (![] : Fin 0 → Fin S800000.rank)
  reducesTo_S800000_S_d0 : S800000.ReducesTo [0] S_
  bcast_S_S800000x3 : S_.BroadcastsInDim S800000x3 (![] : Fin 0 → Fin S800000x3.rank)
  reducesTo_S800000x3_S_d0_1 : S800000x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S32x192 : S_.BroadcastsInDim S32x192 (![] : Fin 0 → Fin S32x192.rank)
  reducesTo_S32x192_S_d0_1 : S32x192.ReducesTo [0, 1] S_
  slices_S2x800000_S1x800000_1_0 : S2x800000.Slices ![1, 0] S1x800000
  shapeCasts_S1x800000_S800000 : S1x800000.ShapeCasts S800000

variable [Facts]

def fn_part3 {F : FTy → Type} [FloatOps F] (main_arg5 : IVec S2x800000 32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : IVec S1x800000 32 := (extractStridedSlice S1x800000 ![1, 0] · slices_S2x800000_S1x800000_1_0) main_arg5
  let main_v55 : IVec S800000 32 := shapeCast S800000 main_v54 shapeCasts_S1x800000_S800000
  let main_c_20 : IVec S_ 32 := constantI S_ 32 4294917296#32
  let main_v56 : IVec S800000 32 := broadcastInDim S800000 ![] bcast_S_S800000 main_c_20
  let main_v57 : IVec S800000 1 := cmpi .sge main_v55 main_v56
  let main_v58 : IVec S1x800000 32 := (extractStridedSlice S1x800000 ![1, 0] · slices_S2x800000_S1x800000_1_0) main_arg5
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg5 : IVec S2x800000 32) (main_arg8 : FVec F S64x192 .f32) (main_arg9 : FVec F S192 .f32) (main_arg10 : FVec F S32x192 .f32) (main_arg11 : FVec F S192 .f32) (main_v33 : IVec S_ 1) : IVec S_ 1 :=
  let main_v34 : FVec F S64x192 .f32 := Host.absf main_arg8
  let main_cst_12 : FVec F S_ .f32 := constant S_ .f32 0x7F800000#32
  let main_v35 : FVec F S64x192 .f32 := broadcastInDim S64x192 ![] bcast_S_S64x192 main_cst_12
  let main_v36 : IVec S64x192 1 := cmpf .olt main_v34 main_v35
  let main_c_13 : IVec S_ 1 := constantI S_ 1 1#1
  let main_v37 : IVec S_ 1 := (fun x v => Host.reduce IntOp.andi x v reducesTo_S64x192_S_d0_1 h_S_) main_v36 main_c_13
  let main_v38 : IVec S_ 1 := andi main_v33 main_v37
  let main_v39 : FVec F S192 .f32 := Host.absf main_arg9
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S32x192 .f32 := Host.absf main_arg10
  let main_cst_16 : FVec F S_ .f32 := constant S_ .f32 0x7F800000#32
  let main_v45 : FVec F S32x192 .f32 := broadcastInDim S32x192 ![] bcast_S_S32x192 main_cst_16
  let main_v46 : IVec S32x192 1 := cmpf .olt main_v44 main_v45
  let main_c_17 : IVec S_ 1 := constantI S_ 1 1#1
  let main_v47 : IVec S_ 1 := (fun x v => Host.reduce IntOp.andi x v reducesTo_S32x192_S_d0_1 h_S_) main_v46 main_c_17
  let main_v48 : IVec S_ 1 := andi main_v43 main_v47
  let main_v49 : FVec F S192 .f32 := Host.absf main_arg11
  let main_cst_18 : FVec F S_ .f32 := constant S_ .f32 0x7F800000#32
  let main_v50 : FVec F S192 .f32 := broadcastInDim S192 ![] bcast_S_S192 main_cst_18
  fn_part3 (F := F) main_arg5 main_v48 main_v49 main_v50

def fn_part1 {F : FTy → Type} [FloatOps F] (main_arg4 : FVec F S800000x3 .f32) (main_arg5 : IVec S2x800000 32) (main_arg6 : FVec F S64x64 .f32) (main_arg7 : FVec F S64 .f32) (main_arg8 : FVec F S64x192 .f32) (main_arg9 : FVec F S192 .f32) (main_arg10 : FVec F S32x192 .f32) (main_arg11 : FVec F S192 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S800000x3 .f32 := Host.absf main_arg4
  let main_cst_6 : FVec F S_ .f32 := constant S_ .f32 0x7F800000#32
  let main_v20 : FVec F S800000x3 .f32 := broadcastInDim S800000x3 ![] bcast_S_S800000x3 main_cst_6
  let main_v21 : IVec S800000x3 1 := cmpf .olt main_v19 main_v20
  let main_c_7 : IVec S_ 1 := constantI S_ 1 1#1
  let main_v22 : IVec S_ 1 := (fun x v => Host.reduce IntOp.andi x v reducesTo_S800000x3_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg5 main_arg8 main_arg9 main_arg10 main_arg11 main_v33

def fn {F : FTy → Type} [FloatOps F] (main_arg0 : FVec F S50000x64 .f32) (main_arg1 : FVec F S50000x3x64 .f32) (main_arg2 : FVec F S800000x32 .f32) (main_arg3 : FVec F S800000 .f32) (main_arg4 : FVec F S800000x3 .f32) (main_arg5 : IVec S2x800000 32) (main_arg6 : FVec F S64x64 .f32) (main_arg7 : FVec F S64 .f32) (main_arg8 : FVec F S64x192 .f32) (main_arg9 : FVec F S192 .f32) (main_arg10 : FVec F S32x192 .f32) (main_arg11 : FVec F S192 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3x64 .f32 := Host.absf main_arg1
  let main_cst_0 : FVec F S_ .f32 := constant S_ .f32 0x7F800000#32
  let main_v5 : FVec F S50000x3x64 .f32 := broadcastInDim S50000x3x64 ![] bcast_S_S50000x3x64 main_cst_0
  let main_v6 : IVec S50000x3x64 1 := cmpf .olt main_v4 main_v5
  let main_c_1 : IVec S_ 1 := constantI S_ 1 1#1
  let main_v7 : IVec S_ 1 := (fun x v => Host.reduce IntOp.andi x v reducesTo_S50000x3x64_S_d0_1_2 h_S_) main_v6 main_c_1
  let main_v8 : IVec S_ 1 := andi main_v3 main_v7
  let main_v9 : FVec F S800000x32 .f32 := Host.absf main_arg2
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg4 main_arg5 main_arg6 main_arg7 main_arg8 main_arg9 main_arg10 main_arg11 main_v13 main_v16
-- ==== Kernel.lean ====
abbrev S50000x64 : Shape := ⟨2, ![50000, 64]⟩
abbrev S50000x3x64 : Shape := ⟨3, ![50000, 3, 64]⟩
abbrev S800000x32 : Shape := ⟨2, ![800000, 32]⟩
abbrev S800000 : Shape := ⟨1, ![800000]⟩
abbrev S800000x3 : Shape := ⟨2, ![800000, 3]⟩
abbrev S2x800000 : Shape := ⟨2, ![2, 800000]⟩
abbrev S64x64 : Shape := ⟨2, ![64, 64]⟩
abbrev S64 : Shape := ⟨1, ![64]⟩
abbrev S64x192 : Shape := ⟨2, ![64, 192]⟩
abbrev S192 : Shape := ⟨1, ![192]⟩
abbrev S32x192 : Shape := ⟨2, ![32, 192]⟩
abbrev S1x800000 : Shape := ⟨2, ![1, 800000]⟩
abbrev S1x64 : Shape := ⟨2, ![1, 64]⟩
abbrev S1x192 : Shape := ⟨2, ![1, 192]⟩
abbrev S800000x1 : Shape := ⟨2, ![800000, 1]⟩
abbrev S50000x192 : Shape := ⟨2, ![50000, 192]⟩
abbrev S5000x64 : Shape := ⟨2, ![5000, 64]⟩
abbrev S5000x192 : Shape := ⟨2, ![5000, 192]⟩
abbrev S_ : Shape := ⟨0, ![]⟩
abbrev S1 : Shape := ⟨1, ![1]⟩
abbrev S1x1 : Shape := ⟨2, ![1, 1]⟩
abbrev S800000x192 : Shape := ⟨2, ![800000, 192]⟩
abbrev S800000x256 : Shape := ⟨2, ![800000, 256]⟩
abbrev S2000x32 : Shape := ⟨2, ![2000, 32]⟩
abbrev S2000x1 : Shape := ⟨2, ![2000, 1]⟩
abbrev S2000x3 : Shape := ⟨2, ![2000, 3]⟩
abbrev S2000x192 : Shape := ⟨2, ![2000, 192]⟩
abbrev S2000x256 : Shape := ⟨2, ![2000, 256]⟩
abbrev S2000x64 : Shape := ⟨2, ![2000, 64]⟩
abbrev S50000x256 : Shape := ⟨2, ![50000, 256]⟩

abbrev nBuf : Space → Nat
  | .hbm => 78
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S50000x3x64, .f32⟩
  | .hbm, ⟨2, _⟩ => ⟨S800000x32, .f32⟩
  | .hbm, ⟨3, _⟩ => ⟨S800000, .f32⟩
  | .hbm, ⟨4, _⟩ => ⟨S800000x3, .f32⟩
  | .hbm, ⟨5, _⟩ => ⟨S2x800000, .i32⟩
  | .hbm, ⟨6, _⟩ => ⟨S64x64, .f32⟩
  | .hbm, ⟨7, _⟩ => ⟨S64, .f32⟩
  | .hbm, ⟨8, _⟩ => ⟨S64x192, .f32⟩
  | .hbm, ⟨9, _⟩ => ⟨S192, .f32⟩
  | .hbm, ⟨10, _⟩ => ⟨S32x192, .f32⟩
  | .hbm, ⟨11, _⟩ => ⟨S192, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x64, .f32⟩
  | .hbm, ⟨17, _⟩ => ⟨S1x192, .f32⟩
  | .hbm, ⟨18, _⟩ => ⟨S1x192, .f32⟩
  | .hbm, ⟨19, _⟩ => ⟨S800000x1, .f32⟩
  | .hbm, ⟨20, _⟩ => ⟨S50000x192, .f32⟩
  | .hbm, ⟨21, _⟩ => ⟨S50000x192, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S1, .i32⟩
  | .hbm, ⟨31, _⟩ => ⟨S_, .i32⟩
  | .hbm, ⟨32, _⟩ => ⟨S800000x1, .i32⟩
  | .hbm, ⟨33, _⟩ => ⟨S800000x1, .i1⟩
  | .hbm, ⟨34, _⟩ => ⟨S1x1, .i32⟩
  | .hbm, ⟨35, _⟩ => ⟨S800000x1, .i32⟩
  | .hbm, ⟨36, _⟩ => ⟨S800000x1, .i1⟩
  | .hbm, ⟨37, _⟩ => ⟨S800000x1, .i1⟩
  | .hbm, ⟨38, _⟩ => ⟨S_, .i1⟩
  | .hbm, ⟨39, _⟩ => ⟨S800000, .i1⟩
  | .hbm, ⟨40, _⟩ => ⟨S800000x192, .f32⟩
  | .hbm, ⟨41, _⟩ => ⟨S800000x192, .i1⟩
  | .hbm, ⟨42, _⟩ => ⟨S_, .f32⟩
  | .hbm, ⟨43, _⟩ => ⟨S800000x192, .f32⟩
  | .hbm, ⟨44, _⟩ => ⟨S800000x192, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S1, .i32⟩
  | .hbm, ⟨54, _⟩ => ⟨S_, .i32⟩
  | .hbm, ⟨55, _⟩ => ⟨S800000x1, .i32⟩
  | .hbm, ⟨56, _⟩ => ⟨S800000x1, .i1⟩
  | .hbm, ⟨57, _⟩ => ⟨S1x1, .i32⟩
  | .hbm, ⟨58, _⟩ => ⟨S800000x1, .i32⟩
  | .hbm, ⟨59, _⟩ => ⟨S800000x1, .i1⟩
  | .hbm, ⟨60, _⟩ => ⟨S800000x1, .i1⟩
  | .hbm, ⟨61, _⟩ => ⟨S_, .i1⟩
  | .hbm, ⟨62, _⟩ => ⟨S800000, .i1⟩
  | .hbm, ⟨63, _⟩ => ⟨S800000x192, .f32⟩
  | .hbm, ⟨64, _⟩ => ⟨S800000x192, .i1⟩
  | .hbm, ⟨65, _⟩ => ⟨S_, .f32⟩
  | .hbm, ⟨66, _⟩ => ⟨S800000x192, .f32⟩
  | .hbm, ⟨67, _⟩ => ⟨S800000x192, .f32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S50000x64, .f32⟩
  | .hbm, ⟨74, _⟩ => ⟨S50000x192, .f32⟩
  | .hbm, ⟨75, _⟩ => ⟨S50000x3x64, .f32⟩
  | .hbm, ⟨76, _⟩ => ⟨S50000x64, .f32⟩
  | .hbm, ⟨77, _⟩ => ⟨S50000x3x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x192, .f32⟩
  | .local _ .vmem, ⟨5, _⟩ => ⟨S1x192, .f32⟩
  | .local _ .vmem, ⟨6, _⟩ => ⟨S5000x192, .f32⟩
  | .local _ .vmem, ⟨7, _⟩ => ⟨S5000x192, .f32⟩
  | .local _ .vmem, ⟨8, _⟩ => ⟨S2000x32, .f32⟩
  | .local _ .vmem, ⟨9, _⟩ => ⟨S2000x32, .f32⟩
  | .local _ .vmem, ⟨10, _⟩ => ⟨S2000x1, .f32⟩
  | .local _ .vmem, ⟨11, _⟩ => ⟨S2000x1, .f32⟩
  | .local _ .vmem, ⟨12, _⟩ => ⟨S2000x3, .f32⟩
  | .local _ .vmem, ⟨13, _⟩ => ⟨S2000x3, .f32⟩
  | .local _ .vmem, ⟨14, _⟩ => ⟨S2000x192, .f32⟩
  | .local _ .vmem, ⟨15, _⟩ => ⟨S2000x192, .f32⟩
  | .local _ .vmem, ⟨16, _⟩ => ⟨S2000x192, .f32⟩
  | .local _ .vmem, ⟨17, _⟩ => ⟨S2000x192, .f32⟩
  | .local _ .vmem, ⟨18, _⟩ => ⟨S32x192, .f32⟩
  | .local _ .vmem, ⟨19, _⟩ => ⟨S1x192, .f32⟩
  | .local _ .vmem, ⟨20, _⟩ => ⟨S2000x256, .f32⟩
  | .local _ .vmem, ⟨21, _⟩ => ⟨S2000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v10 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v11 : Ref sig .tc := ⟨.hbm, 67, rfl⟩
abbrev main_v12 : Ref sig .tc := ⟨.hbm, 68, rfl⟩
abbrev main_cst : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S32x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  shapeCasts_S192_S1x192 : S192.ShapeCasts S1x192
  shapeCasts_S800000_S800000x1 : S800000.ShapeCasts S800000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x192_S64x192_0_0 : ∀ a, (![0, 0] : Fin 2 → Nat) a + S64x192.size a ≤ S64x192.size a
  h_S64x192 : 0 < S64x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  shapeCasts_S50000x3x64_S50000x192 : S50000x3x64.ShapeCasts S50000x192
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x192_0 : S800000.BroadcastsInDim S800000x192 (![0] : Fin 1 → Fin S800000x192.rank)
  bcast_S_S800000x192 : S_.BroadcastsInDim S800000x192 (![] : Fin 0 → Fin S800000x192.rank)
  inb_S2000x32_S2000x32_0_0 : ∀ a, (![0, 0] : Fin 2 → Nat) a + S2000x32.size a ≤ S2000x32.size a
  h_S2000x32 : 0 < S2000x32.numel
  inb_S32x192_S32x192_0_0 : ∀ a, (![0, 0] : Fin 2 → Nat) a + S32x192.size a ≤ S32x192.size a
  h_S32x192 : 0 < S32x192.numel
  broadcasts_S1x192_S2000x192 : S1x192.Broadcasts S2000x192
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x192 : S2000x1.Broadcasts S2000x192
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  inb_S2000x3_S2000x3_0_0 : ∀ a, (![0, 0] : Fin 2 → Nat) a + S2000x3.size a ≤ S2000x3.size a
  h_S2000x3 : 0 < S2000x3.numel
  slices_S2000x3_o0_0_S2000x1 : S2000x3.Slices ![0, 0] S2000x1
  broadcasts_S2000x1_S2000x64 : S2000x1.Broadcasts S2000x64
  slices_S2000x3_o0_1_S2000x1 : S2000x3.Slices ![0, 1] S2000x1
  slices_S2000x3_o0_2_S2000x1 : S2000x3.Slices ![0, 2] S2000x1
  concatenates_S2000x64_S2000x64_S2000x64_S2000x64_S2000x256_d1 : Shape.Concatenates [S2000x64, S2000x64, S2000x64, S2000x64] S2000x256 1
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  slices_S50000x256_S50000x64_0_0 : S50000x256.Slices ![0, 0] S50000x64
  slices_S50000x256_S50000x192_0_64 : S50000x256.Slices ![0, 64] S50000x192
  shapeCasts_S50000x192_S50000x3x64 : S50000x192.ShapeCasts S50000x3x64
  dot_S5000x64_S64x64_S5000x64_1_0_0_1_n_n_wf : DotDims.WF S5000x64 S64x64 S5000x64 [1] [0] [0] [1] [] []
  dot_S5000x64_S64x192_S5000x192_1_0_0_1_n_n_wf : DotDims.WF S5000x64 S64x192 S5000x192 [1] [0] [0] [1] [] []
  gather_S50000x192_S800000x1_S800000x192_1_0_n_n_0_1_1192_wf : GatherDims.WF S50000x192 S800000x1 S800000x192 [1] [0] [] [0] [] 1 ![1, 192]
  dot_S2000x32_S32x192_S2000x192_1_0_0_1_n_n_wf : DotDims.WF S2000x32 S32x192 S2000x192 [1] [0] [0] [1] [] []
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x192.size a ≤ S64x192.size a
  hwx0_3 : ∀ i : grid0.Coords, EltTy.bits .f32 = 32 ∨ (Rect.block (s := S64x192) S64x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x192.size a ≤ S50000x192.size a
  hwx0_5 : ∀ i : grid0.Coords, EltTy.bits .f32 = 32 ∨ (Rect.block (s := S50000x192) S5000x192.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S800000x32.size a
  hwx1_0 : ∀ i : grid1.Coords, EltTy.bits .f32 = 32 ∨ (Rect.block (s := S800000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S800000x1.size a
  hwx1_1 : ∀ i : grid1.Coords, EltTy.bits .f32 = 32 ∨ (Rect.block (s := S800000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S800000x3.size a
  hwx1_2 : ∀ i : grid1.Coords, EltTy.bits .f32 = 32 ∨ (Rect.block (s := S800000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x192.size a ≤ S800000x192.size a
  hwx1_3 : ∀ i : grid1.Coords, EltTy.bits .f32 = 32 ∨ (Rect.block (s := S800000x192) S2000x192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x192.size a ≤ S800000x192.size a
  hwx1_4 : ∀ i : grid1.Coords, EltTy.bits .f32 = 32 ∨ (Rect.block (s := S800000x192) S2000x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x192.size a ≤ S32x192.size a
  hwx1_5 : ∀ i : grid1.Coords, EltTy.bits .f32 = 32 ∨ (Rect.block (s := S32x192) S32x192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x192.size a ≤ S1x192.size a
  hwx1_6 : ∀ i : grid1.Coords, EltTy.bits .f32 = 32 ∨ (Rect.block (s := S1x192) S1x192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S800000x256.size a
  hwx1_7 : ∀ i : grid1.Coords, EltTy.bits .f32 = 32 ∨ (Rect.block (s := S800000x256) S2000x256.size (cc1_transform_7 i) (hinb1_7 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def dot_S2000x32_S32x192_S2000x192_1_0_0_1_n_n : DotDims S2000x32 S32x192 S2000x192 where
  lhsContracting := [1]
  rhsContracting := [0]
  lhsNonContracting := [0]
  rhsNonContracting := [1]
  lhsBatch := []
  rhsBatch := []
  wf := dot_S2000x32_S32x192_S2000x192_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S64x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S5000x192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2000x192.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S32x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3x64 : Shape := ⟨3, ![50000, 3, 64]⟩
abbrev S800000x32 : Shape := ⟨2, ![800000, 32]⟩
abbrev S800000 : Shape := ⟨1, ![800000]⟩
abbrev S800000x3 : Shape := ⟨2, ![800000, 3]⟩
abbrev S2x800000 : Shape := ⟨2, ![2, 800000]⟩
abbrev S64x64 : Shape := ⟨2, ![64, 64]⟩
abbrev S64 : Shape := ⟨1, ![64]⟩
abbrev S64x192 : Shape := ⟨2, ![64, 192]⟩
abbrev S192 : Shape := ⟨1, ![192]⟩
abbrev S32x192 : Shape := ⟨2, ![32, 192]⟩
abbrev S1x800000 : Shape := ⟨2, ![1, 800000]⟩
abbrev S1x64 : Shape := ⟨2, ![1, 64]⟩
abbrev S_ : Shape := ⟨0, ![]⟩
abbrev S50000x192 : Shape := ⟨2, ![50000, 192]⟩
abbrev S1x192 : Shape := ⟨2, ![1, 192]⟩
abbrev S800000x192 : Shape := ⟨2, ![800000, 192]⟩
abbrev S800000x1 : Shape := ⟨2, ![800000, 1]⟩
abbrev S800000x64 : Shape := ⟨2, ![800000, 64]⟩
abbrev S800000x3x64 : Shape := ⟨3, ![800000, 3, 64]⟩
abbrev S800000x1x64 : Shape := ⟨3, ![800000, 1, 64]⟩
abbrev S800000x3x1 : Shape := ⟨3, ![800000, 3, 1]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3x64, .f32⟩
  | .hbm, ⟨2, _⟩ => ⟨S800000x32, .f32⟩
  | .hbm, ⟨3, _⟩ => ⟨S800000, .f32⟩
  | .hbm, ⟨4, _⟩ => ⟨S800000x3, .f32⟩
  | .hbm, ⟨5, _⟩ => ⟨S2x800000, .i32⟩
  | .hbm, ⟨6, _⟩ => ⟨S64x64, .f32⟩
  | .hbm, ⟨7, _⟩ => ⟨S64, .f32⟩
  | .hbm, ⟨8, _⟩ => ⟨S64x192, .f32⟩
  | .hbm, ⟨9, _⟩ => ⟨S192, .f32⟩
  | .hbm, ⟨10, _⟩ => ⟨S32x192, .f32⟩
  | .hbm, ⟨11, _⟩ => ⟨S192, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000x64, .f32⟩
  | .hbm, ⟨17, _⟩ => ⟨S1x64, .f32⟩
  | .hbm, ⟨18, _⟩ => ⟨S50000x64, .f32⟩
  | .hbm, ⟨19, _⟩ => ⟨S50000x64, .f32⟩
  | .hbm, ⟨20, _⟩ => ⟨S50000x64, .f32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | .hbm, ⟨25, _⟩ => ⟨S_, .f32⟩
  | .hbm, ⟨26, _⟩ => ⟨S50000x64, .f32⟩
  | .hbm, ⟨27, _⟩ => ⟨S50000x64, .f32⟩
  | .hbm, ⟨28, _⟩ => ⟨S50000x64, .f32⟩
  | .hbm, ⟨29, _⟩ => ⟨S50000x192, .f32⟩
  | .hbm, ⟨30, _⟩ => ⟨S1x192, .f32⟩
  | .hbm, ⟨31, _⟩ => ⟨S50000x192, .f32⟩
  | .hbm, ⟨32, _⟩ => ⟨S50000x192, .f32⟩
  | .hbm, ⟨33, _⟩ => ⟨S800000x192, .f32⟩
  | .hbm, ⟨34, _⟩ => ⟨S1x192, .f32⟩
  | .hbm, ⟨35, _⟩ => ⟨S800000x192, .f32⟩
  | .hbm, ⟨36, _⟩ => ⟨S800000x192, .f32⟩
  | .hbm, ⟨37, _⟩ => ⟨S800000x1, .f32⟩
  | .hbm, ⟨38, _⟩ => ⟨S800000x192, .f32⟩
  | .hbm, ⟨39, _⟩ => ⟨S800000x192, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x192, .f32⟩
  | .hbm, ⟨49, _⟩ => ⟨S800000x192, .f32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x3x64, .f32⟩
  | .hbm, ⟨66, _⟩ => ⟨S800000x1x64, .f32⟩
  | .hbm, ⟨67, _⟩ => ⟨S800000x3x64, .f32⟩
  | .hbm, ⟨68, _⟩ => ⟨S800000x3x64, .f32⟩
  | .hbm, ⟨69, _⟩ => ⟨S800000x1x64, .f32⟩
  | .hbm, ⟨70, _⟩ => ⟨S800000x3x1, .f32⟩
  | .hbm, ⟨71, _⟩ => ⟨S800000x3x64, .f32⟩
  | .hbm, ⟨72, _⟩ => ⟨S800000x3x64, .f32⟩
  | .hbm, ⟨73, _⟩ => ⟨S800000x3x64, .f32⟩
  | .hbm, ⟨74, _⟩ => ⟨S800000x3x64, .f32⟩
  | .hbm, ⟨75, _⟩ => ⟨S_, .f32⟩
  | .hbm, ⟨76, _⟩ => ⟨S50000x3x64, .f32⟩
  | .hbm, ⟨77, _⟩ => ⟨S800000x1, .i32⟩
  | .hbm, ⟨78, _⟩ => ⟨S50000x3x64, .f32⟩
  | .hbm, ⟨79, _⟩ => ⟨S50000x64, .f32⟩
  | .hbm, ⟨80, _⟩ => ⟨S50000x3x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_1 : Ref sig .tc := ⟨.hbm, 57, rfl⟩
abbrev main_v34 : Ref sig .tc := ⟨.hbm, 58, rfl⟩
abbrev main_v35 : Ref sig .tc := ⟨.hbm, 59, rfl⟩
abbrev main_c_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_3 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S1x192_S800000x192_0_1 : S1x192.BroadcastsInDim S800000x192 (![0, 1] : Fin 2 → Fin S800000x192.rank)
  bcast_S800000_S800000x1_0 : S800000.BroadcastsInDim S800000x1 (![0] : Fin 1 → Fin S800000x1.rank)
  bcast_S800000x1_S800000x192_0_1 : S800000x1.BroadcastsInDim S800000x192 (![0, 1] : Fin 2 → Fin S800000x192.rank)
  bcast_S_S800000 : S_.BroadcastsInDim S800000 (![] : Fin 0 → Fin S800000.rank)
  slices_S800000x192_S800000x64_0_0 : S800000x192.Slices ![0, 0] S800000x64
  slices_S800000x192_S800000x64_0_64 : S800000x192.Slices ![0, 64] S800000x64
  slices_S800000x192_S800000x64_0_128 : S800000x192.Slices ![0, 128] S800000x64
  bcast_S800000x64_S800000x1x64_0_2 : S800000x64.BroadcastsInDim S800000x1x64 (![0, 2] : Fin 2 → Fin S800000x1x64.rank)
  bcast_S800000x1x64_S800000x3x64_0_1_2 : S800000x1x64.BroadcastsInDim S800000x3x64 (![0, 1, 2] : Fin 3 → Fin S800000x3x64.rank)
  bcast_S800000x3_S800000x3x1_0_1 : S800000x3.BroadcastsInDim S800000x3x1 (![0, 1] : Fin 2 → Fin S800000x3x1.rank)
  bcast_S800000x3x1_S800000x3x64_0_1_2 : S800000x3x1.BroadcastsInDim S800000x3x64 (![0, 1, 2] : Fin 3 → Fin S800000x3x64.rank)
  bcast_S_S50000x3x64 : S_.BroadcastsInDim S50000x3x64 (![] : Fin 0 → Fin S50000x3x64.rank)
  dot_S50000x64_S64x64_S50000x64_1_0_0_1_n_n_wf : DotDims.WF S50000x64 S64x64 S50000x64 [1] [0] [0] [1] [] []
  dot_S50000x64_S64x192_S50000x192_1_0_0_1_n_n_wf : DotDims.WF S50000x64 S64x192 S50000x192 [1] [0] [0] [1] [] []
  dot_S800000x32_S32x192_S800000x192_1_0_0_1_n_n_wf : DotDims.WF S800000x32 S32x192 S800000x192 [1] [0] [0] [1] [] []
  gather_S50000x192_S800000x1_S800000x192_1_0_n_n_0_1_1192_wf : GatherDims.WF S50000x192 S800000x1 S800000x192 [1] [0] [] [0] [] 1 ![1, 192]
  scatter_S50000x64_S800000x1_S800000x64_1_0_0_1_wf : ScatterDims.WF S50000x64 S800000x1 S800000x64 [1] [0] [0] 1
  gather_S50000x3x64_S800000x1_S800000x3x64_12_0_n_n_0_1_1364_wf : GatherDims.WF S50000x3x64 S800000x1 S800000x3x64 [1, 2] [0] [] [0] [] 1 ![1, 3, 64]
  scatter_S50000x3x64_S800000x1_S800000x3x64_12_0_0_1_wf : ScatterDims.WF S50000x3x64 S800000x1 S800000x3x64 [1, 2] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def dot_S800000x32_S32x192_S800000x192_1_0_0_1_n_n : DotDims S800000x32 S32x192 S800000x192 where
  lhsContracting := [1]
  rhsContracting := [0]
  lhsNonContracting := [0]
  rhsNonContracting := [1]
  lhsBatch := []
  rhsBatch := []
  wf := dot_S800000x32_S32x192_S800000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x3x64_S800000x1_S800000x3x64_12_0_n_n_0_1_1364 : GatherDims S50000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S50000x3x64_S800000x1_S800000x3x64_12_0_n_n_0_1_1364_wf
def scatter_S50000x3x64_S800000x1_S800000x3x64_12_0_0_1 : ScatterDims S50000x3x64 S800000x1 S800000x3x64 where
  updateWindowDims := [1, 2]
  insertedWindowDims := [0]
  scatterDimsToOperandDims := [0]
  indexVectorDim := 1
  wf := scatter_S50000x3x64_S800000x1_S800000x3x64_12_0_0_1_wf

class Facts : Prop extends Facts₀ where

variable [Facts]
-- ==== Proof.Take.lean ====
/-
  The row lookup the kernel program performs on the host, as functions of whole arrays.

  The pair of edge-index rows is a [2, 800000] integer array; row 0 lists the target nodes, row 1 the source nodes.
  A lookup of node rows at the source nodes first counts a negative index from the end (50000 is added to it), then
  tests the result against the row range [0, 49999], gathers the rows at the result (the gather itself clamps into
  the range), and finally keeps the gathered row where the test passed and puts the not-a-number pattern elsewhere.
-/
import proofs.«410702_j40475771797587_3_alg».proof.Proof.Gen.KernelIdeal
import Idealize.ShloMosaic.PureOps.Ideal

noncomputable section

namespace Cert.KernelIdeal.Take

open Cert.KernelIdeal Cert.KernelIdeal.Gen Idealize.ShloMosaic

/-- Row 0 of the index pair, as a flat list: the target nodes. -/
def targets (x5 : IVec S2x800000 32) : IVec S800000 32 :=
  shapeCast S800000 (extractStridedSlice S1x800000 ![0, 0] x5 slices_S2x800000_S1x800000_0_0) shapeCasts_S1x800000_S800000

/-- Row 1 of the index pair, as a flat list: the source nodes. -/
def sources (x5 : IVec S2x800000 32) : IVec S800000 32 :=
  shapeCast S800000 (extractStridedSlice S1x800000 ![1, 0] x5 slices_S2x800000_S1x800000_1_0) shapeCasts_S1x800000_S800000

/-- A list of indices with the negative ones counted from the end, as a one-column array. -/
def wrapIdx (j : IVec S800000 32) : IVec S800000x1 32 :=
  broadcastInDim S800000x1 ![0] bcast_S800000_S800000x1_0
    (select (cmpi .slt j (broadcastInDim S800000 ![] bcast_S_S800000 (constantI S_ 32 0#32)))
      (addi j (broadcastInDim S800000 ![] bcast_S_S800000 (constantI S_ 32 50000#32))) j)

/-- The range test of the wrapped indices, spread along the 192 channels: one where `0 ≤ index ≤ 49999`. -/
def inRange (j : IVec S800000 32) : IVec S800000x192 1 :=
  broadcastInDim S800000x192 ![0] bcast_S800000_S800000x192_0
    (Host.reduce IntOp.andi
      (andi (cmpi .sge (wrapIdx j) (broadcastInDim S800000x1 ![] bcast_S_S800000x1 (constantI S_ 32 0#32)))
        (cmpi .sle (wrapIdx j)
          (broadcastInDim S800000x1 ![0, 1] bcast_S1x1_S800000x1_0_1
            (broadcastInDim S1x1 ![1] bcast_S1_S1x1_1 (constantI S1 32 49999#32)))))
      (constantI S_ 1 1#1) reducesTo_S800000x1_S800000_d1 h_S_)

/-- The row gather at the wrapped indices. -/
def rows (x : FVec Ideal S50000x192 .f32) (j : IVec S800000 32) : FVec Ideal S800000x192 .f32 :=
  Host.gather gather_S50000x192_S800000x1_S800000x192_1_0_n_n_0_1_1192 x (wrapIdx j)

/-- The lookup: the gathered row where the wrapped index is in range, the not-a-number pattern elsewhere. -/
def take (x : FVec Ideal S50000x192 .f32) (j : IVec S800000 32) : FVec Ideal S800000x192 .f32 :=
  select (inRange j) (rows x j)
    (broadcastInDim S800000x192 ![] bcast_S_S800000x192 (constant S_ .f32 0x7FC00000#32))

end Cert.KernelIdeal.Take

end
-- ==== Proof.Lookup.lean ====
/-
  The row lookup in three pieces, and a stretch of operations run as two stretches.

  The lookup of node rows at the source nodes is: the wrapped indices (a negative index counted from the end); the
  range test of the wrapped indices, which is the conjunction of two compares along the one column; and the choice,
  by the test, between the gathered row and the not-a-number pattern.
-/
import proofs.«410702_j40475771797587_3_alg».proof.Proof.Gen.KernelIdeal.Launch
import proofs.«410702_j40475771797587_3_alg».proof.Proof.Take
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.Tactic Idealize.SL.Sem Idealize.ShloMosaic.StableHlo

/-- The two compares of a wrapped index column against the row range. -/
def cmpTest (w : IVec S800000x1 32) : IVec S800000x1 1 :=
  andi (cmpi .sge w (broadcastInDim S800000x1 ![] bcast_S_S800000x1 (constantI S_ 32 0#32)))
    (cmpi .sle w
      (broadcastInDim S800000x1 ![0, 1] bcast_S1x1_S800000x1_0_1
        (broadcastInDim S1x1 ![1] bcast_S1_S1x1_1 (constantI S1 32 49999#32))))

/-- The conjunction along the one column. -/
def allCols (t : IVec S800000x1 1) : IVec S800000 1 :=
  Host.reduce IntOp.andi t (constantI S_ 1 1#1) reducesTo_S800000x1_S800000_d1 h_S_

/-- The gathered row where the test `t` passed, the not-a-number pattern elsewhere. -/
def pick (t : IVec S800000 1) (x : FVec Ideal S50000x192 .f32) (w : IVec S800000x1 32) : FVec Ideal S800000x192 .f32 :=
  select (broadcastInDim S800000x192 ![0] bcast_S800000_S800000x192_0 t)
    (Host.gather gather_S50000x192_S800000x1_S800000x192_1_0_n_n_0_1_1192 x w)
    (broadcastInDim S800000x192 ![] bcast_S_S800000x192 (constant S_ .f32 0x7FC00000#32))

/-- The lookup is its three pieces composed. -/
theorem take_pick (x : FVec Ideal S50000x192 .f32) (j : IVec S800000 32) :
    Take.take x j = pick (allCols (cmpTest (Take.wrapIdx j))) x (Take.wrapIdx j) := rfl

/-- A stretch run as two stretches one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- No operation of a part of the named stretch writes the buffer. -/
macro "nwl " ops:ident : tactic => `(tactic| (
  refine List.forall_iff_forall_mem.mp ?_
  simp only [$ops:ident, List.take_succ_cons, List.take_zero, List.drop_succ_cons, List.drop_zero,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

end Cert.KernelIdeal.Glue

end
-- ==== Proof.LookupOne.lean ====
/-
  The first lookup stretch of the program (twenty-three operations) leaves in its result buffer the lookup of the node
  transform's buffer at the source nodes, whatever the buffers held before it. The stretch is cut into its first
  eight, next ten and last five operations, one piece of the lookup each; a buffer that no operation of a piece writes
  is unchanged across the piece.
-/
import proofs.«410702_j40475771797587_3_alg».proof.Proof.Lookup

set_option maxRecDepth 16384

noncomputable section

namespace Cert.KernelIdeal.Glue

open Cert.KernelIdeal Cert.KernelIdeal.Gen
open Idealize.ShloMosaic Idealize.ShloMosaic.TcCoe Idealize.ShloMosaic.Tactic Idealize.SL.Sem Idealize.ShloMosaic.StableHlo

/-- Lookup one, first eight operations: the wrapped source nodes. -/
theorem wrap0 (X : Valuation τ sig (Elt Ideal)) :
    after (List.take 8 (hostOps1_1 (F := Ideal))) X (Proc.devRef .tc main_call0_v5) = Take.wrapIdx (X (Proc.devRef .tc main_v3)) := by
  simp only [hostOps1_1, List.take_succ_cons, List.take_zero]
  unfold Take.wrapIdx
  after_results
  rfl

/-- Lookup one, next ten operations: the range test of the wrapped source nodes. -/
theorem range0 (X : Valuation τ sig (Elt Ideal)) :
    after (List.take 10 (List.drop 8 (hostOps1_1 (F := Ideal)))) X (Proc.devRef .tc main_call0_v12)
      = allCols (cmpTest (X (Proc.devRef .tc main_call0_v5))) := by
  simp only [hostOps1_1, List.drop_succ_cons, List.drop_zero, List.take_succ_cons, List.take_zero]
  after_results_simp
  simp only [TRef.toBuf, TRef.ofBuf, cast_eq]
  rfl

/-- Lookup one, last five operations: the gather, and the choice by the range test. -/
theorem pick0 (X : Valuation τ sig (Elt Ideal)) :
    after (List.drop 10 (List.drop 8 (hostOps1_1 (F := Ideal)))) X (Proc.devRef .tc main_v10)
      = pick (X (Proc.devRef .tc main_call0_v12)) (X (Proc.devRef .tc main_v8)) (X (Proc.devRef .tc main_call0_v5)) := by
  simp only [hostOps1_1, List.drop_succ_cons, List.drop_zero]
  unfold pick
  after_results
  rfl

/-- The first lookup stretch leaves in its result buffer the lookup of its operand buffer at the source nodes,
    whatever the buffers held before it: the three pieces in order, a buffer none of a piece's operations writes
    unchanged across the piece. -/
theorem take0 (X : Valuation τ sig (Elt Ideal)) :
    StableHlo.after (hostOps1_1 (F := Ideal)) X (Proc.devRef .tc main_v10)
      = Take.take (X (Proc.devRef .tc main_v8)) (X (Proc.devRef .tc main_v3)) := by
  have hs : (hostOps1_1 (F := Ideal)) = List.take 8 hostOps1_1
      ++ (List.take 10 (List.drop 8 hostOps1_1) ++ List.drop 10 (List.drop 8 hostOps1_1)) := by
    rw [List.take_append_drop, List.take_append_drop]
  rw [hs, after_append, after_append, pick0, range0]
  have hx : ∀ Y : Valuation τ sig (Elt Ideal),
      after (List.take 10 (List.drop 8 (hostOps1_1 (F := Ideal)))) Y (Proc.devRef .tc main_v8) = Y (Proc.devRef .tc main_v8) :=
    fun Y => after_of_forall_not_mem _ _ (by nwl hostOps1_1)
  have hx' : after (List.take 8 (hostOps1_1 (F := Ideal))) X (Proc.devRef .tc main_v8) = X (Proc.devRef .tc main_v8) :=
    after_of_forall_not_mem _ _ (by nwl hostOps1_1)
  have hw : ∀ Y : Valuation τ sig (Elt Ideal),
      after (List.take 10 (List.drop 8 (hostOps1_1 (F := Ideal)))) Y (Proc.devRef .tc main_call0_v5)
        = Y (Proc.devRef .tc main_call0_v5) :=
    fun Y => after_of_forall_not_mem _ _ (by nwl hostOps1_1)
  rw [hx, hx', hw, wrap0]
  exact (take_pick _ _).symm

end Cert.KernelIdeal.Glue

end
-- ==== Proof.LookupTwo.lean ====
/-
  The second lookup stretch of the program (twenty-three operations) leaves in its result buffer the lookup of the re-laid vector
  features' buffer at the source nodes, whatever the buffers held before it. The stretch is cut into its first
  eight, next ten and last five operations, one piece of the lookup each; a buffer that no operation of a piece writes
  is unchanged across the piece.
-/
import proofs.«410702_j40475771797587_3_alg».proof.Proof.Lookup

set_option maxRecDepth 16384

noncomputable section

namespace Cert.KernelIdeal.Glue

open Cert.KernelIdeal Cert.KernelIdeal.Gen
open Idealize.ShloMosaic Idealize.ShloMosaic.TcCoe Idealize.ShloMosaic.Tactic Idealize.SL.Sem Idealize.ShloMosaic.StableHlo

/-- Lookup two, first eight operations: the wrapped source nodes. -/
theorem wrap1 (X : Valuation τ sig (Elt Ideal)) :
    after (List.take 8 (hostOps1_2 (F := Ideal))) X (Proc.devRef .tc main_call1_v5) = Take.wrapIdx (X (Proc.devRef .tc main_v3)) := by
  simp only [hostOps1_2, List.take_succ_cons, List.take_zero]
  unfold Take.wrapIdx
  after_results
  rfl

/-- Lookup two, next ten operations: the range test of the wrapped source nodes. -/
theorem range1 (X : Valuation τ sig (Elt Ideal)) :
    after (List.take 10 (List.drop 8 (hostOps1_2 (F := Ideal)))) X (Proc.devRef .tc main_call1_v12)
      = allCols (cmpTest (X (Proc.devRef .tc main_call1_v5))) := by
  simp only [hostOps1_2, List.drop_succ_cons, List.drop_zero, List.take_succ_cons, List.take_zero]
  after_results_simp
  simp only [TRef.toBuf, TRef.ofBuf, cast_eq]
  rfl

/-- Lookup two, last five operations: the gather, and the choice by the range test. -/
theorem pick1 (X : Valuation τ sig (Elt Ideal)) :
    after (List.drop 10 (List.drop 8 (hostOps1_2 (F := Ideal)))) X (Proc.devRef .tc main_v11)
      = pick (X (Proc.devRef .tc main_call1_v12)) (X (Proc.devRef .tc main_v9)) (X (Proc.devRef .tc main_call1_v5)) := by
  simp only [hostOps1_2, List.drop_succ_cons, List.drop_zero]
  unfold pick
  after_results
  rfl

/-- The second lookup stretch leaves in its result buffer the lookup of its operand buffer at the source nodes,
    whatever the buffers held before it: the three pieces in order, a buffer none of a piece's operations writes
    unchanged across the piece. -/
theorem take1 (X : Valuation τ sig (Elt Ideal)) :
    StableHlo.after (hostOps1_2 (F := Ideal)) X (Proc.devRef .tc main_v11)
      = Take.take (X (Proc.devRef .tc main_v9)) (X (Proc.devRef .tc main_v3)) := by
  have hs : (hostOps1_2 (F := Ideal)) = List.take 8 hostOps1_2
      ++ (List.take 10 (List.drop 8 hostOps1_2) ++ List.drop 10 (List.drop 8 hostOps1_2)) := by
    rw [List.take_append_drop, List.take_append_drop]
  rw [hs, after_append, after_append, pick1, range1]
  have hx : ∀ Y : Valuation τ sig (Elt Ideal),
      after (List.take 10 (List.drop 8 (hostOps1_2 (F := Ideal)))) Y (Proc.devRef .tc main_v9) = Y (Proc.devRef .tc main_v9) :=
    fun Y => after_of_forall_not_mem _ _ (by nwl hostOps1_2)
  have hx' : after (List.take 8 (hostOps1_2 (F := Ideal))) X (Proc.devRef .tc main_v9) = X (Proc.devRef .tc main_v9) :=
    after_of_forall_not_mem _ _ (by nwl hostOps1_2)
  have hw : ∀ Y : Valuation τ sig (Elt Ideal),
      after (List.take 10 (List.drop 8 (hostOps1_2 (F := Ideal)))) Y (Proc.devRef .tc main_call1_v5)
        = Y (Proc.devRef .tc main_call1_v5) :=
    fun Y => after_of_forall_not_mem _ _ (by nwl hostOps1_2)
  rw [hx, hx', hw, wrap1]
  exact (take_pick _ _).symm

end Cert.KernelIdeal.Glue

end
-- ==== Proof.HostGlue.lean ====
/-
  What the buffers hold between the segments of the kernel program, read back to the launch memory.

  The program runs, in order: eight slices and reshapes of its arguments; the first region (the node transform);
  a reshape of the vector features; two row lookups at the source nodes (of the node transform's result, and of
  the reshaped vector features); the second region (the edge transform); and a tail that scatter-adds the second
  region's rows at the target nodes, slices the sum into its scalar and vector parts and adds them to the first
  two arguments. A buffer that a stretch does not write keeps its contents across it, and a region changes only
  its own arrays, so each region's input arrays, and the tail's operands, are read back stage by stage to terms
  of the launch memory and of the regions' result arrays.
-/
import proofs.«410702_j40475771797587_3_alg».proof.Proof.KernelRun
import proofs.«410702_j40475771797587_3_alg».proof.Proof.Take
import proofs.«410702_j40475771797587_3_alg».proof.Proof.LookupOne
import proofs.«410702_j40475771797587_3_alg».proof.Proof.LookupTwo
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- No operation of the named stretch writes the buffer: each operation writes one buffer, another one. -/
macro "nw " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## A buffer no operation of a stretch writes is unchanged across it -/

theorem pass0 {b : Ref sig .tc} (c : Dev nD)
    (h : ∀ op ∈ (hostOps0 : List (HloOp τ sig (Elt Ideal))), Proc.devRef .tc b ∉ op.writes) :
    W1 m ρ c (Proc.devRef .tc b) = m ((c : Thread nD τ).loc b) :=
  after_of_forall_not_mem _ _ h
theorem pass1 {b : Ref sig .tc} (c : Dev nD)
    (h : ∀ op ∈ (hostOps1 : List (HloOp τ sig (Elt Ideal))), Proc.devRef .tc b ∉ op.writes) :
    W3 m ρ c (Proc.devRef .tc b) = W2 m ρ c (Proc.devRef .tc b) :=
  after_of_forall_not_mem _ _ h
theorem pass11 {b : Ref sig .tc} (c : Dev nD)
    (h : ∀ op ∈ (hostOps1_1 : List (HloOp τ sig (Elt Ideal))), Proc.devRef .tc b ∉ op.writes) :
    W4 m ρ c (Proc.devRef .tc b) = W3 m ρ c (Proc.devRef .tc b) :=
  after_of_forall_not_mem _ _ h
theorem pass12 {b : Ref sig .tc} (c : Dev nD)
    (h : ∀ op ∈ (hostOps1_2 : List (HloOp τ sig (Elt Ideal))), Proc.devRef .tc b ∉ op.writes) :
    W5 m ρ c (Proc.devRef .tc b) = W4 m ρ c (Proc.devRef .tc b) :=
  after_of_forall_not_mem _ _ h

/-- Across the first region and the three stretches after it: a buffer that is none of the first region's arrays
    and that none of those stretches writes holds at the second region's entry what it held at the first's. -/
theorem entry1_of_entry0 {b : Ref sig .tc} (c : Dev nD)
    (h12 : ∀ op ∈ (hostOps1_2 : List (HloOp τ sig (Elt Ideal))), Proc.devRef .tc b ∉ op.writes)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes)
    (hA : ∀ w, Pipeline.arrRef spec0 w ≠ b) :
    W5 m ρ c (Proc.devRef .tc b) = W1 m ρ c (Proc.devRef .tc b) :=
  (pass12 m ρ c h12).trans ((pass11 m ρ c h11).trans ((pass1 m ρ c h1).trans (W2_of_ne m ρ c b hA)))

/-! ## The first region's input arrays on entry -/

theorem entry0_s (c : Dev nD) : V1 m ρ c main_arg0 = m ((c : Thread nD τ).loc main_arg0) := pass0 m ρ c (by nw hostOps0)
theorem entry0_W1 (c : Dev nD) : V1 m ρ c main_arg6 = m ((c : Thread nD τ).loc main_arg6) := pass0 m ρ c (by nw hostOps0)
theorem entry0_W2 (c : Dev nD) : V1 m ρ c main_arg8 = m ((c : Thread nD τ).loc main_arg8) := pass0 m ρ c (by nw hostOps0)
/-- The first bias, as a one-row matrix. -/
theorem entry0_b1 (c : Dev nD) :
    V1 m ρ c main_v4 = shapeCast S1x64 (m ((c : Thread nD τ).loc main_arg7)) shapeCasts_S64_S1x64 := by
  show StableHlo.after hostOps0 (W0 m ρ c) (Proc.devRef .tc main_v4) = _
  after_results; rfl
/-- The second bias, as a one-row matrix. -/
theorem entry0_b2 (c : Dev nD) :
    V1 m ρ c main_v5 = shapeCast S1x192 (m ((c : Thread nD τ).loc main_arg9)) shapeCasts_S192_S1x192 := by
  show StableHlo.after hostOps0 (W0 m ρ c) (Proc.devRef .tc main_v5) = _
  after_results; rfl

/-! ## The index rows, the cutoff column and the radial bias row after the first stretch -/

theorem W1_targets (c : Dev nD) : W1 m ρ c (Proc.devRef .tc main_v1) = Take.targets (m ((c : Thread nD τ).loc main_arg5)) := by
  show StableHlo.after hostOps0 (W0 m ρ c) (Proc.devRef .tc main_v1) = _
  unfold Take.targets
  after_results; rfl
theorem W1_sources (c : Dev nD) : W1 m ρ c (Proc.devRef .tc main_v3) = Take.sources (m ((c : Thread nD τ).loc main_arg5)) := by
  show StableHlo.after hostOps0 (W0 m ρ c) (Proc.devRef .tc main_v3) = _
  unfold Take.sources
  after_results; rfl
theorem W1_br (c : Dev nD) :
    W1 m ρ c (Proc.devRef .tc main_v6) = shapeCast S1x192 (m ((c : Thread nD τ).loc main_arg11)) shapeCasts_S192_S1x192 := by
  show StableHlo.after hostOps0 (W0 m ρ c) (Proc.devRef .tc main_v6) = _
  after_results; rfl
theorem W1_fc (c : Dev nD) :
    W1 m ρ c (Proc.devRef .tc main_v7) = shapeCast S800000x1 (m ((c : Thread nD τ).loc main_arg3)) shapeCasts_S800000_S800000x1 := by
  show StableHlo.after hostOps0 (W0 m ρ c) (Proc.devRef .tc main_v7) = _
  after_results; rfl

/-! ## The second region's input arrays on entry -/

theorem entry1_rad (c : Dev nD) : V5 m ρ c main_arg2 = m ((c : Thread nD τ).loc main_arg2) :=
  (entry1_of_entry0 m ρ c (by nw hostOps1_2) (by nw hostOps1_1) (by nw hostOps1) (by decide)).trans
    (pass0 m ρ c (by nw hostOps0))
theorem entry1_uv (c : Dev nD) : V5 m ρ c main_arg4 = m ((c : Thread nD τ).loc main_arg4) :=
  (entry1_of_entry0 m ρ c (by nw hostOps1_2) (by nw hostOps1_1) (by nw hostOps1) (by decide)).trans
    (pass0 m ρ c (by nw hostOps0))
theorem entry1_Wr (c : Dev nD) : V5 m ρ c main_arg10 = m ((c : Thread nD τ).loc main_arg10) :=
  (entry1_of_entry0 m ρ c (by nw hostOps1_2) (by nw hostOps1_1) (by nw hostOps1) (by decide)).trans
    (pass0 m ρ c (by nw hostOps0))
/-- The cutoffs, as a one-column matrix. -/
theorem entry1_fc (c : Dev nD) :
    V5 m ρ c main_v7 = shapeCast S800000x1 (m ((c : Thread nD τ).loc main_arg3)) shapeCasts_S800000_S800000x1 :=
  (entry1_of_entry0 m ρ c (by nw hostOps1_2) (by nw hostOps1_1) (by nw hostOps1) (by decide)).trans (W1_fc m ρ c)
/-- The radial bias, as a one-row matrix. -/
theorem entry1_br (c : Dev nD) :
    V5 m ρ c main_v6 = shapeCast S1x192 (m ((c : Thread nD τ).loc main_arg11)) shapeCasts_S192_S1x192 :=
  (entry1_of_entry0 m ρ c (by nw hostOps1_2) (by nw hostOps1_1) (by nw hostOps1) (by decide)).trans (W1_br m ρ c)

/-- The source nodes, still in their buffer after the first region and the reshape. -/
theorem W3_sources (c : Dev nD) : W3 m ρ c (Proc.devRef .tc main_v3) = Take.sources (m ((c : Thread nD τ).loc main_arg5)) :=
  (pass1 m ρ c (by nw hostOps1)).trans ((W2_of_ne m ρ c main_v3 (by decide)).trans (W1_sources m ρ c))

/-- The gathered node rows: the lookup, at the source nodes, of the first region's result array. -/
theorem entry1_pg (c : Dev nD) :
    V5 m ρ c main_v10 = Take.take ((dat0 (V1 m ρ) c).arrAt 5 cfg0.N) (Take.sources (m ((c : Thread nD τ).loc main_arg5))) := by
  have h8 : W3 m ρ c (Proc.devRef .tc main_v8) = (dat0 (V1 m ρ) c).arrAt 5 cfg0.N :=
    (pass1 m ρ c (by nw hostOps1)).trans (W2_arr m ρ c 5)
  refine (pass12 m ρ c (by nw hostOps1_2)).trans ((take0 (W3 m ρ c)).trans ?_)
  exact congrArg₂ Take.take h8 (W3_sources m ρ c)

/-- The gathered vector features: the lookup, at the source nodes, of the vector features re-laid as 192-wide rows. -/
theorem entry1_vg (c : Dev nD) :
    V5 m ρ c main_v11 = Take.take (shapeCast S50000x192 (m ((c : Thread nD τ).loc main_arg1)) shapeCasts_S50000x3x64_S50000x192)
      (Take.sources (m ((c : Thread nD τ).loc main_arg5))) := by
  have h9 : W4 m ρ c (Proc.devRef .tc main_v9)
      = shapeCast S50000x192 (m ((c : Thread nD τ).loc main_arg1)) shapeCasts_S50000x3x64_S50000x192 := by
    refine (pass11 m ρ c (by nw hostOps1_1)).trans ?_
    show StableHlo.after hostOps1 (W2 m ρ c) (Proc.devRef .tc main_v9) = _
    have h1 : W2 m ρ c (Proc.devRef .tc main_arg1) = m ((c : Thread nD τ).loc main_arg1) :=
      (W2_of_ne m ρ c main_arg1 (by decide)).trans (pass0 m ρ c (by nw hostOps0))
    rw [← h1]
    generalize W2 m ρ c = X
    after_results; rfl
  have h3 : W4 m ρ c (Proc.devRef .tc main_v3) = Take.sources (m ((c : Thread nD τ).loc main_arg5)) :=
    (pass11 m ρ c (by nw hostOps1_1)).trans (W3_sources m ρ c)
  exact (take1 (W4 m ρ c)).trans (congrArg₂ Take.take h9 h3)

/-! ## The two results after the tail -/

/-- The scatter-add, at the target nodes `ii`, of 256-wide rows `u` onto zeros. -/
def summed (ii : IVec S800000 32) (u : FVec Ideal S800000x256 .f32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 ii) u

/-- The first result: `a0` plus the first 64 columns of the sum. -/
def outS (a0 : FVec Ideal S50000x64 .f32) (ii : IVec S800000 32) (u : FVec Ideal S800000x256 .f32) : FVec Ideal S50000x64 .f32 :=
  addf a0 (extractStridedSlice S50000x64 ![0, 0] (summed ii u) slices_S50000x256_S50000x64_0_0)

/-- The second result: `a1` plus the last 192 columns of the sum, re-laid as 3 × 64. -/
def outV (a1 : FVec Ideal S50000x3x64 .f32) (ii : IVec S800000 32) (u : FVec Ideal S800000x256 .f32) :
    FVec Ideal S50000x3x64 .f32 :=
  addf a1 (shapeCast S50000x3x64
    (extractStridedSlice S50000x192 ![0, 64] (summed ii u) slices_S50000x256_S50000x192_0_64)
    shapeCasts_S50000x192_S50000x3x64)

/-- The tail's first result, over any buffer contents. -/
theorem tail_s (X : Valuation τ sig (Elt Ideal)) :
    StableHlo.after (hostOps2 (F := Ideal)) X (Proc.devRef .tc main_v19)
      = outS (X (Proc.devRef .tc main_arg0)) (X (Proc.devRef .tc main_v1)) (X (Proc.devRef .tc main_v12)) := by
  unfold outS summed
  after_results <;> rfl

/-- The tail's second result, over any buffer contents. -/
theorem tail_v (X : Valuation τ sig (Elt Ideal)) :
    StableHlo.after (hostOps2 (F := Ideal)) X (Proc.devRef .tc main_v20)
      = outV (X (Proc.devRef .tc main_arg1)) (X (Proc.devRef .tc main_v1)) (X (Proc.devRef .tc main_v12)) := by
  unfold outV summed
  after_results <;> rfl

/-- The target nodes, still in their buffer after the second region. -/
theorem W6_targets (c : Dev nD) : W6 m ρ c (Proc.devRef .tc main_v1) = Take.targets (m ((c : Thread nD τ).loc main_arg5)) :=
  (W6_of_ne m ρ c main_v1 (by decide)).trans
    ((entry1_of_entry0 m ρ c (by nw hostOps1_2) (by nw hostOps1_1) (by nw hostOps1) (by decide)).trans (W1_targets m ρ c))

theorem pass2 {b : Ref sig .tc} (c : Dev nD)
    (h : ∀ op ∈ (hostOps2 : List (HloOp τ sig (Elt Ideal))), Proc.devRef .tc b ∉ op.writes) :
    W7 m ρ c (Proc.devRef .tc b) = W6 m ρ c (Proc.devRef .tc b) :=
  after_of_forall_not_mem _ _ h

/-- The first result after the run, in terms of the launch memory and the second region's result array. -/
theorem result_s (c : Dev nD) :
    W7 m ρ c (Proc.devRef .tc main_v19)
      = outS (m ((c : Thread nD τ).loc main_arg0)) (Take.targets (m ((c : Thread nD τ).loc main_arg5)))
          ((dat1 (V5 m ρ) c).arrAt 7 cfg1.N) := by
  have h0 : W6 m ρ c (Proc.devRef .tc main_arg0) = m ((c : Thread nD τ).loc main_arg0) :=
    (pass2 m ρ c (by nw hostOps2)).symm.trans (W7_main_arg0 m ρ c)
  have h12 : W6 m ρ c (Proc.devRef .tc main_v12) = (dat1 (V5 m ρ) c).arrAt 7 cfg1.N := W6_arr m ρ c 7
  refine (tail_s (W6 m ρ c)).trans ?_
  rw [h0, W6_targets m ρ c, h12]

/-- The second result after the run. -/
theorem result_v (c : Dev nD) :
    W7 m ρ c (Proc.devRef .tc main_v20)
      = outV (m ((c : Thread nD τ).loc main_arg1)) (Take.targets (m ((c : Thread nD τ).loc main_arg5)))
          ((dat1 (V5 m ρ) c).arrAt 7 cfg1.N) := by
  have h1 : W6 m ρ c (Proc.devRef .tc main_arg1) = m ((c : Thread nD τ).loc main_arg1) :=
    (pass2 m ρ c (by nw hostOps2)).symm.trans (W7_main_arg1 m ρ c)
  have h12 : W6 m ρ c (Proc.devRef .tc main_v12) = (dat1 (V5 m ρ) c).arrAt 7 cfg1.N := W6_arr m ρ c 7
  refine (tail_v (W6 m ρ c)).trans ?_
  rw [h1, W6_targets m ρ c, h12]

end Cert.KernelIdeal.Glue

end
-- ==== Proof.Spec.lean ====
/-
  The mathematics shared by the two programs, as functions of whole arrays read index by index on the extended
  reals.

  * The node transform: every node row of 64 features goes through an affine map, the activation h · σ(h) with σ the
    logistic function, and a second affine map to 192 channels.
  * The edge transform: for every edge, the 192-channel radial filter (an affine map of the 32 radial features,
    scaled by the edge's cutoff) multiplies the gathered node row channel by channel; the product's three 64-wide
    thirds are the scalar message, the factor of the gathered vector features, and the factor of the edge's unit
    vector. The result row has 256 entries: the scalar message followed by the three vector-message channels.
  * The 256-wide row layout: a pair of a 64-wide array and a 3 × 64 array laid side by side.
-/
import Idealize.ShloMosaic.PureOps.Ideal
import Idealize.ShloMosaic.Lib.ValueIdx

noncomputable section

open scoped BigOperators

namespace Cert.Msg

open Idealize.ShloMosaic Idealize.ShloMosaic.ValueIdx

abbrev Arr (s : Shape) : Type := s.Idx → EReal

abbrev SN64 : Shape := ⟨2, ![50000, 64]⟩
abbrev SN192 : Shape := ⟨2, ![50000, 192]⟩
abbrev SN3x64 : Shape := ⟨3, ![50000, 3, 64]⟩
abbrev S64x64 : Shape := ⟨2, ![64, 64]⟩
abbrev S1x64 : Shape := ⟨2, ![1, 64]⟩
abbrev S64x192 : Shape := ⟨2, ![64, 192]⟩
abbrev S1x192 : Shape := ⟨2, ![1, 192]⟩
abbrev S32x192 : Shape := ⟨2, ![32, 192]⟩
abbrev SE32 : Shape := ⟨2, ![800000, 32]⟩
abbrev SE1 : Shape := ⟨2, ![800000, 1]⟩
abbrev SE3 : Shape := ⟨2, ![800000, 3]⟩
abbrev SE64 : Shape := ⟨2, ![800000, 64]⟩
abbrev SE192 : Shape := ⟨2, ![800000, 192]⟩
abbrev SE256 : Shape := ⟨2, ![800000, 256]⟩
abbrev SE3x64 : Shape := ⟨3, ![800000, 3, 64]⟩

/-- A vector as a one-row matrix. -/
def row1 {n : Nat} (b : Arr ⟨1, ![n]⟩) : Arr ⟨2, ![1, n]⟩ := fun i => b (ix1 (i 1))

/-- A vector as a one-column matrix. -/
def col1 {n : Nat} (f : Arr ⟨1, ![n]⟩) : Arr ⟨2, ![n, 1]⟩ := fun i => f (ix1 (i 0))

/-- The hidden pre-activation of node `n`, feature `k`: the row of `s` against column `k` of `W1`, plus the bias. -/
def hid (s : Arr SN64) (W1 : Arr S64x64) (b1 : Arr S1x64) (n : Fin 50000) (k : Fin 64) : EReal :=
  (∑ l : Fin 64, s (ix2 n l) * W1 (ix2 l k)) + b1 (ix2 0 k)

/-- The activation h ↦ h · σ(h), σ the logistic function. -/
def silu (h : EReal) : EReal := h * Ideal.logistic h

/-- The node transform: 192 channels per node. -/
def phiOut (s : Arr SN64) (W1 : Arr S64x64) (b1 : Arr S1x64) (W2 : Arr S64x192) (b2 : Arr S1x192) : Arr SN192 :=
  fun i => (∑ k : Fin 64, silu (hid s W1 b1 (i 0) k) * W2 (ix2 k (i 1))) + b2 (ix2 0 (i 1))

/-- The radial filter of edge `e`, channel `j`: an affine map of the edge's 32 radial features, times its cutoff. -/
def filt (rad : Arr SE32) (fc : Arr SE1) (Wr : Arr S32x192) (br : Arr S1x192) (e : Fin 800000) (j : Fin 192) : EReal :=
  ((∑ r : Fin 32, rad (ix2 e r) * Wr (ix2 r j)) + br (ix2 0 j)) * fc (ix2 e 0)

/-- The filtered gathered node row of edge `e`, channel `j`. -/
def msg (rad : Arr SE32) (fc : Arr SE1) (pg : Arr SE192) (Wr : Arr S32x192) (br : Arr S1x192) (e : Fin 800000) (j : Fin 192) :
    EReal :=
  pg (ix2 e j) * filt rad fc Wr br e j

/-- The scalar message of edge `e`, feature `f`: the first third of the filtered row. -/
def msgS (rad : Arr SE32) (fc : Arr SE1) (pg : Arr SE192) (Wr : Arr S32x192) (br : Arr S1x192) : Arr SE64 :=
  fun i => msg rad fc pg Wr br (i 0) ⟨(i 1).val, by have := idx2_lt1 i; omega⟩

/-- The vector message of edge `e`, channel `c`, feature `f`: the gathered vector feature times the second third of the
    filtered row, plus the edge's unit-vector component times the last third. The gathered vector features come as
    192-wide rows, channel `c` in columns `64 c … 64 c + 63`. -/
def msgV (rad : Arr SE32) (fc : Arr SE1) (uv : Arr SE3) (pg vg : Arr SE192) (Wr : Arr S32x192) (br : Arr S1x192) :
    Arr SE3x64 :=
  fun i =>
    vg (ix2 (i 0) ⟨64 * (i 1).val + (i 2).val, by have h1 : (i 1).val < 3 := (i 1).isLt; have h2 : (i 2).val < 64 := (i 2).isLt; omega⟩)
        * msg rad fc pg Wr br (i 0) ⟨64 + (i 2).val, by have h2 : (i 2).val < 64 := (i 2).isLt; omega⟩
      + uv (ix2 (i 0) (i 1)) * msg rad fc pg Wr br (i 0) ⟨128 + (i 2).val, by have h2 : (i 2).val < 64 := (i 2).isLt; omega⟩

/-- Rows of 256: a 64-wide array followed by the three 64-wide channels of a 3 × 64 array. -/
def cat (xs : Arr SE64) (xv : Arr SE3x64) : Arr SE256 := fun i =>
  if h : (i 1).val < 64 then xs (ix2 (i 0) ⟨(i 1).val, h⟩)
  else xv (ix3 (i 0) ⟨((i 1).val - 64) / 64, by have := idx2_lt1 i; omega⟩ ⟨((i 1).val - 64) % 64, Nat.mod_lt _ (by decide)⟩)

/-- The edge transform's 256-wide result rows. -/
def edgeOut (rad : Arr SE32) (fc : Arr SE1) (uv : Arr SE3) (pg vg : Arr SE192) (Wr : Arr S32x192) (br : Arr S1x192) : Arr SE256 :=
  cat (msgS rad fc pg Wr br) (msgV rad fc uv pg vg Wr br)

end Cert.Msg

end
-- ==== Proof.PhiValue.lean ====
/-
  The first region's result array. The grid has ten points; point t reads rows 5000 t … 5000 t + 4999 of the node
  features and the whole of the two weight matrices and the two one-row biases, and writes the same rows of the
  192-channel result. Each result row is the node transform of its input row, so the ten written blocks are the
  restrictions of ONE whole-array function, the node transform of the arrays as the region finds them, and they
  cover the result.

  In order: the two contractions read at an entry (a sum over the 64 contracted coordinates); the stored block at
  an entry (p, q) as the node transform of row p of the loaded feature block; each window's block as a part of its
  array (rows 5000 t … of the features, the whole of the other four); what a point writes back; every row of the
  result lies in the block of the point (row / 5000); the array after the region.
-/
import proofs.«410702_j40475771797587_3_alg».proof.Proof.Gen.KernelIdeal.Frame
import proofs.«410702_j40475771797587_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.PhiValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents on entry to the region: a parameter, as in the frame
variable (V : (c : Dev nD) → (b : Ref sig .tc) → Buf (Elt Ideal) ((c : Thread nD τ).loc b))

/-! ## The two contractions at an index -/

theorem lhsA_0 (j : S5000x64.Idx) (r : dot_S5000x64_S64x64_S5000x64_1_0_0_1_n_n.contr.Idx) :
    (dot_S5000x64_S64x64_S5000x64_1_0_0_1_n_n.lhsIdx j r 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhsA_1 (j : S5000x64.Idx) (r : dot_S5000x64_S64x64_S5000x64_1_0_0_1_n_n.contr.Idx) :
    (dot_S5000x64_S64x64_S5000x64_1_0_0_1_n_n.lhsIdx j r 1).val = (r ⟨0, by decide⟩).val :=
  dot_S5000x64_S64x64_S5000x64_1_0_0_1_n_n.lhsIdx_val_of_single rfl j r
theorem rhsA_0 (j : S5000x64.Idx) (r : dot_S5000x64_S64x64_S5000x64_1_0_0_1_n_n.contr.Idx) :
    (dot_S5000x64_S64x64_S5000x64_1_0_0_1_n_n.rhsIdx j r 0).val = (r ⟨0, by decide⟩).val :=
  dot_S5000x64_S64x64_S5000x64_1_0_0_1_n_n.rhsIdx_val_of_single rfl j r
theorem rhsA_1 (j : S5000x64.Idx) (r : dot_S5000x64_S64x64_S5000x64_1_0_0_1_n_n.contr.Idx) :
    (dot_S5000x64_S64x64_S5000x64_1_0_0_1_n_n.rhsIdx j r 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The first product into a zero accumulator: entry (p, k) is row p of the left factor against column k of the right. -/
theorem mulA_apply (a : FVec Ideal S5000x64 .bf16) (b : FVec Ideal S64x64 .bf16) (p : Fin 5000) (k : Fin 64) :
    matmul dot_S5000x64_S64x64_S5000x64_1_0_0_1_n_n none a b (constant S5000x64 .f32 0x00000000#32) (ix2 p k)
      = ∑ l : Fin 64, a (ix2 p l) * b (ix2 l k) := by
  show FloatOps.matmul _ _ _ _ _ _ = _
  rw [Ideal.matmul_constant_zero_apply,
    ← Equiv.sum_comp (contrEquiv1 dot_S5000x64_S64x64_S5000x64_1_0_0_1_n_n 64 rfl rfl).symm]
  refine Finset.sum_congr rfl fun l _ => ?_
  have hl := contrEquiv1_symm_val dot_S5000x64_S64x64_S5000x64_1_0_0_1_n_n 64 rfl rfl l
  have el : dot_S5000x64_S64x64_S5000x64_1_0_0_1_n_n.lhsIdx (ix2 p k)
      ((contrEquiv1 dot_S5000x64_S64x64_S5000x64_1_0_0_1_n_n 64 rfl rfl).symm l) = ix2 p l := funext fun ax => Fin.ext (by
    match ax with
    | ⟨0, _⟩ => exact lhsA_0 _ _
    | ⟨1, _⟩ => exact (lhsA_1 _ _).trans hl)
  have er : dot_S5000x64_S64x64_S5000x64_1_0_0_1_n_n.rhsIdx (ix2 p k)
      ((contrEquiv1 dot_S5000x64_S64x64_S5000x64_1_0_0_1_n_n 64 rfl rfl).symm l) = ix2 l k := funext fun ax => Fin.ext (by
    match ax with
    | ⟨0, _⟩ => exact (rhsA_0 _ _).trans hl
    | ⟨1, _⟩ => exact rhsA_1 _ _)
  rw [el, er]

theorem lhsB_0 (j : S5000x192.Idx) (r : dot_S5000x64_S64x192_S5000x192_1_0_0_1_n_n.contr.Idx) :
    (dot_S5000x64_S64x192_S5000x192_1_0_0_1_n_n.lhsIdx j r 0).val = (j 0).val := by
  unfold DotDims.lhsIdx
  rw [dif_neg (show ¬(0 : Fin S5000x64.rank) ∈ dot_S5000x64_S64x192_S5000x192_1_0_0_1_n_n.lhsBatch by decide),
    dif_pos (show (0 : Fin S5000x64.rank) ∈ dot_S5000x64_S64x192_S5000x192_1_0_0_1_n_n.lhsNonContracting by decide)]
  rfl
theorem lhsB_1 (j : S5000x192.Idx) (r : dot_S5000x64_S64x192_S5000x192_1_0_0_1_n_n.contr.Idx) :
    (dot_S5000x64_S64x192_S5000x192_1_0_0_1_n_n.lhsIdx j r 1).val = (r ⟨0, by decide⟩).val :=
  dot_S5000x64_S64x192_S5000x192_1_0_0_1_n_n.lhsIdx_val_of_single rfl j r
theorem rhsB_0 (j : S5000x192.Idx) (r : dot_S5000x64_S64x192_S5000x192_1_0_0_1_n_n.contr.Idx) :
    (dot_S5000x64_S64x192_S5000x192_1_0_0_1_n_n.rhsIdx j r 0).val = (r ⟨0, by decide⟩).val :=
  dot_S5000x64_S64x192_S5000x192_1_0_0_1_n_n.rhsIdx_val_of_single rfl j r
theorem rhsB_1 (j : S5000x192.Idx) (r : dot_S5000x64_S64x192_S5000x192_1_0_0_1_n_n.contr.Idx) :
    (dot_S5000x64_S64x192_S5000x192_1_0_0_1_n_n.rhsIdx j r 1).val = (j 1).val := by
  unfold DotDims.rhsIdx
  rw [dif_neg (show ¬(1 : Fin S64x192.rank) ∈ dot_S5000x64_S64x192_S5000x192_1_0_0_1_n_n.rhsBatch by decide),
    dif_pos (show (1 : Fin S64x192.rank) ∈ dot_S5000x64_S64x192_S5000x192_1_0_0_1_n_n.rhsNonContracting by decide)]
  rfl

/-- The second product into a zero accumulator: entry (p, q) is row p of the left factor against column q of the right. -/
theorem mulB_apply (a : FVec Ideal S5000x64 .bf16) (b : FVec Ideal S64x192 .bf16) (p : Fin 5000) (q : Fin 192) :
    matmul dot_S5000x64_S64x192_S5000x192_1_0_0_1_n_n none a b (constant S5000x192 .f32 0x00000000#32) (ix2 p q)
      = ∑ k : Fin 64, a (ix2 p k) * b (ix2 k q) := by
  show FloatOps.matmul _ _ _ _ _ _ = _
  rw [Ideal.matmul_constant_zero_apply,
    ← Equiv.sum_comp (contrEquiv1 dot_S5000x64_S64x192_S5000x192_1_0_0_1_n_n 64 rfl rfl).symm]
  refine Finset.sum_congr rfl fun k _ => ?_
  have hk := contrEquiv1_symm_val dot_S5000x64_S64x192_S5000x192_1_0_0_1_n_n 64 rfl rfl k
  have el : dot_S5000x64_S64x192_S5000x192_1_0_0_1_n_n.lhsIdx (ix2 p q)
      ((contrEquiv1 dot_S5000x64_S64x192_S5000x192_1_0_0_1_n_n 64 rfl rfl).symm k) = ix2 p k := funext fun ax => Fin.ext (by
    match ax with
    | ⟨0, _⟩ => exact lhsB_0 _ _
    | ⟨1, _⟩ => exact (lhsB_1 _ _).trans hk)
  have er : dot_S5000x64_S64x192_S5000x192_1_0_0_1_n_n.rhsIdx (ix2 p q)
      ((contrEquiv1 dot_S5000x64_S64x192_S5000x192_1_0_0_1_n_n 64 rfl rfl).symm k) = ix2 k q := funext fun ax => Fin.ext (by
    match ax with
    | ⟨0, _⟩ => exact (rhsB_0 _ _).trans hk
    | ⟨1, _⟩ => exact rhsB_1 _ _)
  rw [el, er]

/-! ## The body's result at a block coordinate -/

/-- The logistic function applied entry by entry. -/
theorem logistic_at {s : Shape} (v : FVec Ideal s .f32) (i : s.Idx) : logistic v i = Ideal.logistic (v i) := rfl

/-- The stored block at (p, q), from the five loaded blocks: the node transform of row p of the feature block. -/
theorem stored_at (x0 : Vec Ideal S5000x64 .f32) (x1 : Vec Ideal S64x64 .f32) (x2 : Vec Ideal S1x64 .f32)
    (x3 : Vec Ideal S64x192 .f32) (x4 : Vec Ideal S1x192 .f32) (p : Fin 5000) (q : Fin 192) :
    k0_pay1 (F := Ideal) x0 x1 x2 x3 x4 (ix2 p q)
      = (∑ k : Fin 64, Cert.Msg.silu ((∑ l : Fin 64, x0 (ix2 p l) * x1 (ix2 l k)) + x2 (ix2 0 k)) * x3 (ix2 k q))
          + x4 (ix2 0 q) := by
  unfold k0_pay1
  rw [addf_apply, mulB_apply, shapeCast_self, broadcastTo_1b_ab_apply]
  rw [shapeCast_self]
  refine congrArg (· + x4 (ix2 0 q)) (Finset.sum_congr rfl fun k _ => ?_)
  rw [truncf_apply, truncf_apply, mulf_apply, addf_apply, mulA_apply, broadcastTo_1b_ab_apply]
  rw [logistic_at, addf_apply, mulA_apply, broadcastTo_1b_ab_apply]
  simp only [truncf_apply]
  rfl

/-- The stored block at `y`, when row `y 0` of the feature block is row `i 0` of a feature array `s` and the two column
    coordinates agree, is the node transform of `s` at `i`. -/
theorem stored_eq_phi (x0 : Vec Ideal S5000x64 .f32) (s : Cert.Msg.Arr Cert.Msg.SN64) (W1 : Cert.Msg.Arr Cert.Msg.S64x64)
    (b1 : Cert.Msg.Arr Cert.Msg.S1x64) (W2 : Cert.Msg.Arr Cert.Msg.S64x192) (b2 : Cert.Msg.Arr Cert.Msg.S1x192)
    (y : S5000x192.Idx) (i : S50000x192.Idx)
    (hrow : ∀ l : Fin 64, x0 (ix2 (y 0) l) = s (ix2 (i 0) l)) (hcol : (i 1).val = (y 1).val) :
    k0_pay1 (F := Ideal) x0 W1 b1 W2 b2 y = Cert.Msg.phiOut s W1 b1 W2 b2 i := by
  obtain ⟨p, q, rfl⟩ : ∃ (p : Fin 5000) (q : Fin 192), y = ix2 p q := ⟨y 0, y 1, eq_ix2 y⟩
  obtain ⟨n, r, rfl⟩ : ∃ (n : Fin 50000) (r : Fin 192), i = ix2 n r := ⟨i 0, i 1, eq_ix2 i⟩
  have hrow' : ∀ l : Fin 64, x0 (ix2 p l) = s (ix2 n l) := hrow
  obtain rfl : r = q := Fin.ext hcol
  rw [stored_at]
  show _ = (∑ k : Fin 64, Cert.Msg.silu ((∑ l : Fin 64, s (ix2 n l) * W1 (ix2 l k)) + b1 (ix2 0 k)) * W2 (ix2 k r)) + b2 (ix2 0 r)
  simp only [hrow']

/-! ## The windows' blocks, as parts of the arrays -/

theorem zero_off : (![0, 0] : Fin 2 → Nat) = fun _ => 0 := funext fun a => by fin_cases a <;> rfl

/-- The index maps over the grid: the feature window and the result window are on row block `t`, column block 0; the
    weights' and biases' windows stay on block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point `t` is rows `5000 t … 5000 t + 4999` of the feature array. -/
theorem feat_blk (c : Dev nD) (t : Fin cfg0.N) (y : S5000x64.Idx) (n : S50000x64.Idx)
    (h0 : (n 0).val = 5000 * t.val + (y 0).val) (h1 : (n 1).val = (y 1).val) :
    (iblk0 (F := Ideal) V c 0 t : Vec Ideal S5000x64 .f32) y = (V c main_arg0 : S50000x64.Idx → EReal) n := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * (y 0).val = (n 0).val; rw [e0, h0]; omega
  | ⟨1, _⟩ => show win0_0.index t (1 : Fin 2) * 64 + 1 * (y 1).val = (n 1).val; rw [e1, h1]; omega

/-- The first weight matrix's window holds the whole matrix at every point. -/
theorem w1_blk (c : Dev nD) (t : Fin cfg0.N) :
    (iblk0 (F := Ideal) V c 1 t : Vec Ideal S64x64 .f32) = V c main_arg6 := by
  obtain ⟨-, -, e0, e1, -⟩ := block_indices t
  funext y
  unfold iblk0
  rw [View.read_apply]
  show V c main_arg6 _ = V c main_arg6 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The first bias row's window holds the whole row. -/
theorem b1_blk (c : Dev nD) (t : Fin cfg0.N) :
    (iblk0 (F := Ideal) V c 2 t : Vec Ideal S1x64 .f32) = V c main_v4 := by
  obtain ⟨-, -, -, -, e0, e1, -⟩ := block_indices t
  funext y
  unfold iblk0
  rw [View.read_apply]
  show V c main_v4 _ = V c main_v4 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second weight matrix's window holds the whole matrix. -/
theorem w2_blk (c : Dev nD) (t : Fin cfg0.N) :
    (iblk0 (F := Ideal) V c 3 t : Vec Ideal S64x192 .f32) = V c main_arg8 := by
  obtain ⟨-, -, -, -, -, -, e0, e1, -⟩ := block_indices t
  funext y
  unfold iblk0
  rw [View.read_apply]
  show V c main_arg8 _ = V c main_arg8 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 192 + 1 * (y 1).val = (y 1).val; rw [e1]; omega

/-- The second bias row's window holds the whole row. -/
theorem b2_blk (c : Dev nD) (t : Fin cfg0.N) :
    (iblk0 (F := Ideal) V c 4 t : Vec Ideal S1x192 .f32) = V c main_v5 := by
  obtain ⟨-, -, -, -, -, -, -, -, e0, e1, -⟩ := block_indices t
  funext y
  unfold iblk0
  rw [View.read_apply]
  show V c main_v5 _ = V c main_v5 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 192 + 1 * (y 1).val = (y 1).val; rw [e1]; omega

/-! ## What a point writes back; every row is in some point's block -/

/-- What point `t` writes back is block `t` of the node transform of the arrays the region was entered with. -/
theorem written_block (c : Dev nD) (t : Fin cfg0.N) :
    (dat0 (F := Ideal) V c).flushed 5 t = ((cfg0.win 5).blk t).view.read (Elt Ideal)
      (Cert.Msg.phiOut (V c main_arg0) (V c main_arg6) (V c main_v4) (V c main_arg8) (V c main_v5)) := by
  show (cfg0.win 5).cut (grid0.coords t) ((dat0 V c).after 5 t) = _
  rw [after0_5]
  unfold out0_5
  rw [View.canon_unit_zero zero_off]
  simp only [View.ld_unit_zero (S := S5000x64) zero_off, View.ld_unit_zero (S := S64x64) zero_off,
    View.ld_unit_zero (S := S1x64) zero_off, View.ld_unit_zero (S := S64x192) zero_off,
    View.ld_unit_zero (S := S1x192) zero_off]
  rw [w1_blk, b1_blk, w2_blk, b2_blk]
  obtain ⟨-, -, -, -, -, -, -, -, -, -, e0, e1⟩ := block_indices t
  funext j
  rw [View.read_apply]
  refine stored_eq_phi _ _ _ _ _ _ ((cfg0.win 5).xinj (grid0.coords t) j) (((cfg0.win 5).blk t).view.emb j)
    (fun l => feat_blk V c t _ _ ?_ rfl) ?_
  · show win0_5.index t (0 : Fin 2) * 5000 + 1 * (j 0).val = 5000 * t.val + (j 0).val
    rw [e0]; omega
  · show win0_5.index t (1 : Fin 2) * 192 + 1 * (j 1).val = (j 1).val
    rw [e1]; omega

/-- An index of the result array is in point `t`'s block iff each coordinate is in the block's range on its axis. -/
theorem mem_result_block (t : Fin cfg0.N) (i : S50000x192.Idx) :
    i ∈ ((cfg0.win 5).blk t).view.set ↔ ∀ a : Fin 2, win0_5.index t a * S5000x192.size a ≤ (i a).val
      ∧ (i a).val < win0_5.index t a * S5000x192.size a + S5000x192.size a := by
  show i ∈ ((View.whole main_v8).slice (win0_5.rect t)).set ↔ _
  rw [View.set_slice_whole, Rect.mem_set_unit]
  exact Iff.rfl

/-- Every index of the result array is in the block of the point its row's quotient by 5000 names. -/
theorem rows_covered (i : S50000x192.Idx) :
    ∃ t : Fin cfg0.N, (cfg0.win 5).flush t = true ∧ i ∈ ((cfg0.win 5).blk t).view.set := by
  have hi0 : (i 0).val < 50000 := (i 0).isLt
  have hi1 : (i 1).val < 192 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := block_indices t
  refine ⟨t, flush0_5 t, ?_⟩
  rw [mem_result_block]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 192 ≤ (i 1).val ∧ (i 1).val < win0_5.index t (1 : Fin 2) * 192 + 192
    rw [e1]; omega

/-- After the region the result array holds the node transform of the five arrays the region was entered with. -/
theorem phi_arr (c : Dev nD) :
    (dat0 (F := Ideal) V c).arrAt 5 cfg0.N
      = Cert.Msg.phiOut (V c main_arg0) (V c main_arg6) (V c main_v4) (V c main_arg8) (V c main_v5) :=
  (dat0 V c).arrAt_eq_of_cover 5 _ (fun t _ => written_block V c t) rows_covered

end Cert.KernelIdeal.PhiValue

end
-- ==== Proof.EdgeValue.lean ====
/-
  The second region's result array. The grid has four hundred points; point t reads rows 2000 t … 2000 t + 1999 of
  the five per-edge arrays and the whole of the radial weight matrix and its one-row bias, and writes the same rows
  of the 256-wide result. Each result row is the edge transform of its input rows, so the written blocks are the
  restrictions of ONE whole-array function, the edge transform of the arrays as the region finds them, and they
  cover the result.
-/
import proofs.«410702_j40475771797587_3_alg».proof.Proof.Gen.KernelIdeal.Frame
import proofs.«410702_j40475771797587_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product at an entry

The radial features' block (2000 × 32) times the weight matrix (32 × 192), accumulated into zero, is at entry (p, q)
the sum over the 32 radial features of the products. -/

theorem mm_lhs_0 (i : S2000x192.Idx) (q : dot_S2000x32_S32x192_S2000x192_1_0_0_1_n_n.contr.Idx) :
    (dot_S2000x32_S32x192_S2000x192_1_0_0_1_n_n.lhsIdx i q 0).val = (i 0).val := by
  unfold DotDims.lhsIdx
  rw [dif_neg (show ¬(0 : Fin S2000x32.rank) ∈ dot_S2000x32_S32x192_S2000x192_1_0_0_1_n_n.lhsBatch by decide), dif_pos (show (0 : Fin S2000x32.rank) ∈ dot_S2000x32_S32x192_S2000x192_1_0_0_1_n_n.lhsNonContracting by decide)]
  rfl
theorem mm_lhs_1 (i : S2000x192.Idx) (q : dot_S2000x32_S32x192_S2000x192_1_0_0_1_n_n.contr.Idx) :
    (dot_S2000x32_S32x192_S2000x192_1_0_0_1_n_n.lhsIdx i q 1).val = (q ⟨0, by decide⟩).val :=
  dot_S2000x32_S32x192_S2000x192_1_0_0_1_n_n.lhsIdx_val_of_single rfl i q
theorem mm_rhs_0 (i : S2000x192.Idx) (q : dot_S2000x32_S32x192_S2000x192_1_0_0_1_n_n.contr.Idx) :
    (dot_S2000x32_S32x192_S2000x192_1_0_0_1_n_n.rhsIdx i q 0).val = (q ⟨0, by decide⟩).val :=
  dot_S2000x32_S32x192_S2000x192_1_0_0_1_n_n.rhsIdx_val_of_single rfl i q
theorem mm_rhs_1 (i : S2000x192.Idx) (q : dot_S2000x32_S32x192_S2000x192_1_0_0_1_n_n.contr.Idx) :
    (dot_S2000x32_S32x192_S2000x192_1_0_0_1_n_n.rhsIdx i q 1).val = (i 1).val := by
  unfold DotDims.rhsIdx
  rw [dif_neg (show ¬(1 : Fin S32x192.rank) ∈ dot_S2000x32_S32x192_S2000x192_1_0_0_1_n_n.rhsBatch by decide), dif_pos (show (1 : Fin S32x192.rank) ∈ dot_S2000x32_S32x192_S2000x192_1_0_0_1_n_n.rhsNonContracting by decide)]
  rfl

theorem matmul_at (x : FVec Ideal S2000x32 .bf16) (w : FVec Ideal S32x192 .bf16) (p : Fin 2000) (q : Fin 192) :
    matmul dot_S2000x32_S32x192_S2000x192_1_0_0_1_n_n none x w (constant S2000x192 .f32 0x00000000#32) (ix2 p q)
      = ∑ k : Fin 32, x (ix2 p k) * w (ix2 k q) := by
  show FloatOps.matmul dot_S2000x32_S32x192_S2000x192_1_0_0_1_n_n none x w (constant S2000x192 .f32 0x00000000#32) (ix2 p q) = _
  rw [Ideal.matmul_constant_zero_apply, ← Equiv.sum_comp (contrEquiv1 dot_S2000x32_S32x192_S2000x192_1_0_0_1_n_n 32 rfl rfl).symm]
  refine Finset.sum_congr rfl fun k _ => ?_
  have hk := contrEquiv1_symm_val dot_S2000x32_S32x192_S2000x192_1_0_0_1_n_n 32 rfl rfl k
  have el : dot_S2000x32_S32x192_S2000x192_1_0_0_1_n_n.lhsIdx (ix2 p q) ((contrEquiv1 dot_S2000x32_S32x192_S2000x192_1_0_0_1_n_n 32 rfl rfl).symm k) = ix2 p k := funext fun a => Fin.ext (by
    match a with
    | ⟨0, _⟩ => exact mm_lhs_0 _ _
    | ⟨1, _⟩ => exact (mm_lhs_1 _ _).trans hk)
  have er : dot_S2000x32_S32x192_S2000x192_1_0_0_1_n_n.rhsIdx (ix2 p q) ((contrEquiv1 dot_S2000x32_S32x192_S2000x192_1_0_0_1_n_n 32 rfl rfl).symm k) = ix2 k q := funext fun a => Fin.ext (by
    match a with
    | ⟨0, _⟩ => exact (mm_rhs_0 _ _).trans hk
    | ⟨1, _⟩ => exact mm_rhs_1 _ _)
  rw [el, er]

/-! ## The layout operations at an entry -/

/-- A one-column array spread over `b` columns reads, at `(p, c)`, its row `p`. -/
theorem spread_col_at {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A concatenation of four 64-wide pieces along the columns reads, at column `64 k + f`, piece `k` at column `f`. -/
theorem cat4_at (ys : List ((s : Shape) × (s.Idx → Elt Ideal .f32))) (h : Shape.Concatenates (ys.map (·.1)) S2000x256 1)
    (k : Nat) (hk : k < ys.length) (y : S2000x64.Idx → Elt Ideal .f32) (hy : ys[k] = ⟨S2000x64, y⟩)
    (hpre : (((ys.take k).map (·.1)).map fun s => if h : s.rank = S2000x256.rank then s.size ((1 : Fin S2000x256.rank).cast h.symm) else 0).sum = 64 * k)
    (p : Fin 2000) (q : Fin 256) (f : Fin 64) (hq : q.val = 64 * k + f.val) :
    concatenate S2000x256 1 ys h (ix2 p q) = y (ix2 p f) :=
  concatenate_apply_piece 1 ys h (ix2 p q) k hk S2000x64 y hy rfl (64 * k) hpre (ix2 p f)
    (fun b hb => by
      match b with
      | ⟨0, _⟩ => rfl
      | ⟨1, _⟩ => exact absurd rfl hb)
    (by show 64 * k + f.val = q.val; omega)

/-! ## The edge transform at a row and a column

Columns 0 … 63 of a result row hold the scalar message; column `64 + 64 c + f` holds channel `c`, feature `f` of the
vector message. -/

open Cert.Msg (Arr SE32 SE1 SE3 SE64 SE192 SE256 SE3x64 edgeOut cat msgS msgV msg filt)

theorem cat_scalar (xs : Arr SE64) (xv : Arr SE3x64) (e : Fin 800000) (q : Fin 256) (f : Fin 64) (hq : q.val = f.val) :
    cat xs xv (ix2 e q) = xs (ix2 e f) := by
  unfold cat
  rw [dif_pos (show ((ix2 e q : SE256.Idx) 1).val < 64 by show q.val < 64; have := f.isLt; omega)]
  refine congrArg xs (funext fun a => ?_)
  match a with
  | ⟨0, _⟩ => rfl
  | ⟨1, _⟩ => exact Fin.ext hq

theorem cat_vector (xs : Arr SE64) (xv : Arr SE3x64) (e : Fin 800000) (q : Fin 256) (c : Fin 3) (f : Fin 64)
    (hq : q.val = 64 + 64 * c.val + f.val) : cat xs xv (ix2 e q) = xv (ix3 e c f) := by
  have hc := c.isLt
  have hf := f.isLt
  unfold cat
  rw [dif_neg (show ¬((ix2 e q : SE256.Idx) 1).val < 64 by show ¬q.val < 64; omega)]
  refine congrArg xv (funext fun a => ?_)
  match a with
  | ⟨0, _⟩ => rfl
  | ⟨1, _⟩ => exact Fin.ext (by show (q.val - 64) / 64 = c.val; omega)
  | ⟨2, _⟩ => exact Fin.ext (by show (q.val - 64) % 64 = f.val; omega)

theorem edgeOut_scalar (rad : Arr SE32) (fc : Arr SE1) (uv : Arr SE3) (pg vg : Arr SE192) (Wr : Arr S32x192) (br : Arr S1x192)
    (e : Fin 800000) (q : Fin 256) (f : Fin 64) (hq : q.val = f.val) :
    edgeOut rad fc uv pg vg Wr br (ix2 e q) = msg rad fc pg Wr br e ⟨f.val, by have := f.isLt; omega⟩ := by
  unfold edgeOut
  rw [cat_scalar _ _ e q f hq]
  rfl

theorem edgeOut_vector (rad : Arr SE32) (fc : Arr SE1) (uv : Arr SE3) (pg vg : Arr SE192) (Wr : Arr S32x192) (br : Arr S1x192)
    (e : Fin 800000) (q : Fin 256) (c : Fin 3) (f : Fin 64) (hq : q.val = 64 + 64 * c.val + f.val) :
    edgeOut rad fc uv pg vg Wr br (ix2 e q)
      = vg (ix2 e ⟨64 * c.val + f.val, by have := c.isLt; have := f.isLt; omega⟩) * msg rad fc pg Wr br e ⟨64 + f.val, by have := f.isLt; omega⟩
        + uv (ix2 e c) * msg rad fc pg Wr br e ⟨128 + f.val, by have := f.isLt; omega⟩ := by
  unfold edgeOut
  rw [cat_vector _ _ e q c f hq]
  rfl

/-! ## The body's result at an entry

The body filters the gathered node rows (the block product plus the bias row, times the cutoff column, times the
gathered rows), cuts the filtered block into its three 64-wide thirds, and lays the first third and the three vector
channels side by side. -/

/-- The filtered block: the gathered node rows times the radial filter. -/
def fblk (v0 : Vec Ideal S2000x32 .f32) (v2 : Vec Ideal S32x192 .f32) (v5 : Vec Ideal S1x192 .f32) (v9 : Vec Ideal S2000x1 .f32)
    (v13 : Vec Ideal S2000x192 .f32) : FVec Ideal S2000x192 .f32 :=
  mulf (shapeCast S2000x192 v13 shapeCasts_S2000x192_S2000x192)
    (mulf (addf (matmul dot_S2000x32_S32x192_S2000x192_1_0_0_1_n_n none (truncf .bf16 v0 bitsLt_bf16_f32) (truncf .bf16 v2 bitsLt_bf16_f32)
          (constant S2000x192 .f32 0x00000000#32))
        (broadcastTo S2000x192 (shapeCast S1x192 v5 shapeCasts_S1x192_S1x192) broadcasts_S1x192_S2000x192))
      (broadcastTo S2000x192 (shapeCast S2000x1 v9 shapeCasts_S2000x1_S2000x1) broadcasts_S2000x1_S2000x192))

theorem fblk_at (v0 : Vec Ideal S2000x32 .f32) (v2 : Vec Ideal S32x192 .f32) (v5 : Vec Ideal S1x192 .f32) (v9 : Vec Ideal S2000x1 .f32)
    (v13 : Vec Ideal S2000x192 .f32) (p : Fin 2000) (j : Fin 192) :
    fblk v0 v2 v5 v9 v13 (ix2 p j)
      = v13 (ix2 p j) * (((∑ k : Fin 32, v0 (ix2 p k) * v2 (ix2 k j)) + v5 (ix2 (0 : Fin 1) j)) * v9 (ix2 p (0 : Fin 1))) := by
  unfold fblk
  rw [mulf_apply, mulf_apply, addf_apply, matmul_at, shapeCast_self, shapeCast_self, shapeCast_self, broadcastTo_1b_ab_apply,
    spread_col_at]
  rfl

/-- One vector channel: the channel's 64 columns of the gathered vector features times the second third of the
    filtered block, plus the channel's unit-vector column times the last third. -/
def vchan (o c : Nat) (ho : S2000x192.Slices ![0, o] S2000x64) (hc : S2000x3.Slices ![0, c] S2000x1)
    (fb : FVec Ideal S2000x192 .f32) (v19 : Vec Ideal S2000x192 .f32) (v21 : Vec Ideal S2000x3 .f32) : FVec Ideal S2000x64 .f32 :=
  addf (mulf (extractStridedSlice S2000x64 ![0, o] (shapeCast S2000x192 v19 shapeCasts_S2000x192_S2000x192) ho)
      (extractStridedSlice S2000x64 ![0, 64] fb slices_S2000x192_o0_64_S2000x64))
    (mulf (broadcastTo S2000x64 (extractStridedSlice S2000x1 ![0, c] v21 hc) broadcasts_S2000x1_S2000x64)
      (extractStridedSlice S2000x64 ![0, 128] fb slices_S2000x192_o0_128_S2000x64))

theorem vchan_at (o c : Nat) (ho : S2000x192.Slices ![0, o] S2000x64) (hc : S2000x3.Slices ![0, c] S2000x1)
    (fb : FVec Ideal S2000x192 .f32) (v19 : Vec Ideal S2000x192 .f32) (v21 : Vec Ideal S2000x3 .f32) (p : Fin 2000) (f : Fin 64)
    (ko : Fin 192) (hko : ko.val = o + f.val) (kc : Fin 3) (hkc : kc.val = c + (0 : Fin 1).val)
    (k1 : Fin 192) (hk1 : k1.val = 64 + f.val) (k2 : Fin 192) (hk2 : k2.val = 128 + f.val) :
    vchan o c ho hc fb v19 v21 (ix2 p f) = v19 (ix2 p ko) * fb (ix2 p k1) + v21 (ix2 p kc) * fb (ix2 p k2) := by
  unfold vchan
  rw [addf_apply, mulf_apply, mulf_apply, spread_col_at, shapeCast_self,
    slice2_axis1_apply o v19 ho p f ko hko, slice2_axis1_apply 64 fb _ p f k1 hk1, slice2_axis1_apply 128 fb _ p f k2 hk2,
    slice2_axis1_apply c v21 hc p (0 : Fin 1) kc hkc]

/-- The body's result is the first third of the filtered block and the three vector channels, side by side. -/
theorem pay_eq (v0 : Vec Ideal S2000x32 .f32) (v2 : Vec Ideal S32x192 .f32) (v5 : Vec Ideal S1x192 .f32) (v9 : Vec Ideal S2000x1 .f32)
    (v13 v19 : Vec Ideal S2000x192 .f32) (v21 : Vec Ideal S2000x3 .f32) :
    k1_pay1 v0 v2 v5 v9 v13 v19 v21
      = concatenate S2000x256 1
          [⟨S2000x64, extractStridedSlice S2000x64 ![0, 0] (fblk v0 v2 v5 v9 v13) slices_S2000x192_o0_0_S2000x64⟩,
           ⟨S2000x64, vchan 0 0 slices_S2000x192_o0_0_S2000x64 slices_S2000x3_o0_0_S2000x1 (fblk v0 v2 v5 v9 v13) v19 v21⟩,
           ⟨S2000x64, vchan 64 1 slices_S2000x192_o0_64_S2000x64 slices_S2000x3_o0_1_S2000x1 (fblk v0 v2 v5 v9 v13) v19 v21⟩,
           ⟨S2000x64, vchan 128 2 slices_S2000x192_o0_128_S2000x64 slices_S2000x3_o0_2_S2000x1 (fblk v0 v2 v5 v9 v13) v19 v21⟩]
          concatenates_S2000x64_S2000x64_S2000x64_S2000x64_S2000x256_d1 := rfl

/-! ## The body's result is the edge transform of the rows it was given

Row `p` of the loaded blocks holding row `e` of the per-edge arrays, and the weight and bias blocks the whole of theirs,
row `p` of the body's result is row `e` of the edge transform. -/

section Rows

variable (rad : Arr SE32) (fc : Arr SE1) (uv : Arr SE3) (pg vg : Arr SE192) (Wr : Arr S32x192) (br : Arr S1x192)
variable (v0 : Vec Ideal S2000x32 .f32) (v2 : Vec Ideal S32x192 .f32) (v5 : Vec Ideal S1x192 .f32) (v9 : Vec Ideal S2000x1 .f32)
  (v13 v19 : Vec Ideal S2000x192 .f32) (v21 : Vec Ideal S2000x3 .f32)

theorem fblk_msg (p : Fin 2000) (e : Fin 800000)
    (h0 : ∀ k : Fin 32, v0 (ix2 p k) = rad (ix2 e k))
    (h2 : ∀ (k : Fin 32) (j : Fin 192), v2 (ix2 k j) = Wr (ix2 k j))
    (h5 : ∀ j : Fin 192, v5 (ix2 (0 : Fin 1) j) = br (ix2 (0 : Fin 1) j))
    (h9 : v9 (ix2 p (0 : Fin 1)) = fc (ix2 e (0 : Fin 1)))
    (h13 : ∀ j : Fin 192, v13 (ix2 p j) = pg (ix2 e j)) (j : Fin 192) :
    fblk v0 v2 v5 v9 v13 (ix2 p j) = msg rad fc pg Wr br e j := by
  rw [fblk_at, h13, h5, h9]
  unfold msg filt
  simp only [h0, h2]

theorem pay_at (p : Fin 2000) (e : Fin 800000)
    (h0 : ∀ k : Fin 32, v0 (ix2 p k) = rad (ix2 e k))
    (h2 : ∀ (k : Fin 32) (j : Fin 192), v2 (ix2 k j) = Wr (ix2 k j))
    (h5 : ∀ j : Fin 192, v5 (ix2 (0 : Fin 1) j) = br (ix2 (0 : Fin 1) j))
    (h9 : v9 (ix2 p (0 : Fin 1)) = fc (ix2 e (0 : Fin 1)))
    (h13 : ∀ j : Fin 192, v13 (ix2 p j) = pg (ix2 e j))
    (h19 : ∀ j : Fin 192, v19 (ix2 p j) = vg (ix2 e j))
    (h21 : ∀ c : Fin 3, v21 (ix2 p c) = uv (ix2 e c)) (q : Fin 256) :
    k1_pay1 v0 v2 v5 v9 v13 v19 v21 (ix2 p q) = edgeOut rad fc uv pg vg Wr br (ix2 e q) := by
  have hq := q.isLt
  have hm := fblk_msg rad fc pg Wr br v0 v2 v5 v9 v13 p e h0 h2 h5 h9 h13
  rw [pay_eq]
  rcases (show q.val < 64 ∨ (64 ≤ q.val ∧ q.val < 128) ∨ (128 ≤ q.val ∧ q.val < 192) ∨ 192 ≤ q.val by omega) with h | h | h | h
  · rw [cat4_at _ _ 0 (by show 0 < 4; omega) _ rfl rfl p q ⟨q.val, h⟩ (by show q.val = 64 * 0 + q.val; omega),
      slice2_axis1_apply 0 _ _ p ⟨q.val, h⟩ ⟨q.val, by omega⟩ (by show q.val = 0 + q.val; omega), hm,
      edgeOut_scalar rad fc uv pg vg Wr br e q ⟨q.val, h⟩ rfl]
  · rw [cat4_at _ _ 1 (by show 1 < 4; omega) _ rfl rfl p q ⟨q.val - 64, by omega⟩ (by show q.val = 64 * 1 + (q.val - 64); omega),
      vchan_at 0 0 _ _ _ v19 v21 p ⟨q.val - 64, by omega⟩ ⟨q.val - 64, by omega⟩ (by show q.val - 64 = 0 + (q.val - 64); omega)
        (0 : Fin 3) rfl ⟨64 + (q.val - 64), by omega⟩ rfl ⟨128 + (q.val - 64), by omega⟩ rfl,
      hm, hm, h19, h21,
      edgeOut_vector rad fc uv pg vg Wr br e q (0 : Fin 3) ⟨q.val - 64, by omega⟩ (by show q.val = 64 + 64 * 0 + (q.val - 64); omega)]
    refine congrArg₂ (· + ·) (congrArg₂ (· * ·) (congrArg vg (congrArg (ix2 e) (Fin.ext ?_))) rfl) rfl
    show q.val - 64 = 64 * 0 + (q.val - 64); omega
  · rw [cat4_at _ _ 2 (by show 2 < 4; omega) _ rfl rfl p q ⟨q.val - 128, by omega⟩ (by show q.val = 64 * 2 + (q.val - 128); omega),
      vchan_at 64 1 _ _ _ v19 v21 p ⟨q.val - 128, by omega⟩ ⟨64 + (q.val - 128), by omega⟩ rfl
        (1 : Fin 3) rfl ⟨64 + (q.val - 128), by omega⟩ rfl ⟨128 + (q.val - 128), by omega⟩ rfl,
      hm, hm, h19, h21,
      edgeOut_vector rad fc uv pg vg Wr br e q (1 : Fin 3) ⟨q.val - 128, by omega⟩ (by show q.val = 64 + 64 * 1 + (q.val - 128); omega)]
    refine congrArg₂ (· + ·) (congrArg₂ (· * ·) (congrArg vg (congrArg (ix2 e) (Fin.ext ?_))) rfl) rfl
    show 64 + (q.val - 128) = 64 * 1 + (q.val - 128); omega
  · rw [cat4_at _ _ 3 (by show 3 < 4; omega) _ rfl rfl p q ⟨q.val - 192, by omega⟩ (by show q.val = 64 * 3 + (q.val - 192); omega),
      vchan_at 128 2 _ _ _ v19 v21 p ⟨q.val - 192, by omega⟩ ⟨128 + (q.val - 192), by omega⟩ rfl
        (2 : Fin 3) rfl ⟨64 + (q.val - 192), by omega⟩ rfl ⟨128 + (q.val - 192), by omega⟩ rfl,
      hm, hm, h19, h21,
      edgeOut_vector rad fc uv pg vg Wr br e q (2 : Fin 3) ⟨q.val - 192, by omega⟩ (by show q.val = 64 + 64 * 2 + (q.val - 192); omega)]
    refine congrArg₂ (· + ·) (congrArg₂ (· * ·) (congrArg vg (congrArg (ix2 e) (Fin.ext ?_))) rfl) rfl
    show 128 + (q.val - 192) = 64 * 2 + (q.val - 192); omega

end Rows

/-! ## From the written blocks to the array -/

theorem out_row (rad : Arr SE32) (fc : Arr SE1) (uv : Arr SE3) (pg vg : Arr SE192) (Wr : Arr S32x192) (br : Arr S1x192)
    (x0 : Vec Ideal S2000x32 .f32) (x1 : Vec Ideal S2000x1 .f32) (x2 : Vec Ideal S2000x3 .f32) (x3 x4 : Vec Ideal S2000x192 .f32)
    (x5 : Vec Ideal S32x192 .f32) (x6 : Vec Ideal S1x192 .f32) (t : Nat)
    (h0 : ∀ (p : Fin 2000) (k : Fin 32) (e : Fin 800000), e.val = 2000 * t + p.val → x0 (ix2 p k) = rad (ix2 e k))
    (h1 : ∀ (p : Fin 2000) (e : Fin 800000), e.val = 2000 * t + p.val → x1 (ix2 p (0 : Fin 1)) = fc (ix2 e (0 : Fin 1)))
    (h2 : ∀ (p : Fin 2000) (k : Fin 3) (e : Fin 800000), e.val = 2000 * t + p.val → x2 (ix2 p k) = uv (ix2 e k))
    (h3 : ∀ (p : Fin 2000) (k : Fin 192) (e : Fin 800000), e.val = 2000 * t + p.val → x3 (ix2 p k) = pg (ix2 e k))
    (h4 : ∀ (p : Fin 2000) (k : Fin 192) (e : Fin 800000), e.val = 2000 * t + p.val → x4 (ix2 p k) = vg (ix2 e k))
    (h5 : ∀ (k : Fin 32) (j : Fin 192), x5 (ix2 k j) = Wr (ix2 k j))
    (h6 : ∀ j : Fin 192, x6 (ix2 (0 : Fin 1) j) = br (ix2 (0 : Fin 1) j))
    (j : S2000x256.Idx) (i : SE256.Idx) (hi0 : (i 0).val = 2000 * t + (j 0).val) (hi1 : (i 1).val = (j 1).val) :
    k1_pay1 x0 x5 x6 x1 x3 x4 x2 j = edgeOut rad fc uv pg vg Wr br i := by
  obtain ⟨p, q, rfl⟩ : ∃ (p : Fin 2000) (q : Fin 256), j = ix2 p q := ⟨j 0, j 1, eq_ix2 j⟩
  obtain ⟨e, q', rfl⟩ : ∃ (e : Fin 800000) (q' : Fin 256), i = ix2 e q' := ⟨i 0, i 1, eq_ix2 i⟩
  have he : e.val = 2000 * t + p.val := hi0
  obtain rfl : q' = q := Fin.ext hi1
  exact pay_at rad fc uv pg vg Wr br x0 x5 x6 x1 x3 x4 x2 p e (fun k => h0 p k e he) h5 h6 (h1 p e he) (fun k => h3 p k e he)
    (fun k => h4 p k e he) (fun k => h2 p k e he) q'

-- the buffer contents on entry to the region: a parameter, as in the frame
variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the grid: the five per-edge windows and the result window sit at row block `t`, the weight
    and bias windows at their one block. -/
theorem index_maps : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row `p` of the radial features' block at point `t` is row `2000 t + p` of the array. -/
theorem blk0_at (c : Dev nD) (t : Fin cfg1.N) (p : Fin 2000) (k : Fin 32) (e : Fin 800000) (he : e.val = 2000 * t.val + p.val) :
    (iblk1 (F := Ideal) V c 0 t : Vec Ideal S2000x32 .f32) (ix2 p k) = (V c main_arg2 : Arr SE32) (ix2 e k) := by
  obtain ⟨⟨e0, e1⟩, -⟩ := index_maps t
  unfold iblk1
  rw [View.read_apply]
  show V c main_arg2 _ = V c main_arg2 _
  congr 1
  funext a
  apply Fin.ext
  match a with
  | ⟨0, _⟩ => show win1_0.index t (0 : Fin 2) * 2000 + 1 * p.val = e.val; rw [e0, he]; omega
  | ⟨1, _⟩ => show win1_0.index t (1 : Fin 2) * 32 + 1 * k.val = k.val; rw [e1]; omega

/-- Row `p` of the cutoff column's block at point `t` is row `2000 t + p` of the array. -/
theorem blk1_at (c : Dev nD) (t : Fin cfg1.N) (p : Fin 2000) (e : Fin 800000) (he : e.val = 2000 * t.val + p.val) :
    (iblk1 (F := Ideal) V c 1 t : Vec Ideal S2000x1 .f32) (ix2 p (0 : Fin 1)) = (V c main_v7 : Arr SE1) (ix2 e (0 : Fin 1)) := by
  obtain ⟨-, ⟨e0, e1⟩, -⟩ := index_maps t
  unfold iblk1
  rw [View.read_apply]
  show V c main_v7 _ = V c main_v7 _
  congr 1
  funext a
  apply Fin.ext
  match a with
  | ⟨0, _⟩ => show win1_1.index t (0 : Fin 2) * 2000 + 1 * p.val = e.val; rw [e0, he]; omega
  | ⟨1, _⟩ => show win1_1.index t (1 : Fin 2) * 1 + 1 * 0 = 0; rw [e1]

/-- Row `p` of the unit vectors' block at point `t` is row `2000 t + p` of the array. -/
theorem blk2_at (c : Dev nD) (t : Fin cfg1.N) (p : Fin 2000) (k : Fin 3) (e : Fin 800000) (he : e.val = 2000 * t.val + p.val) :
    (iblk1 (F := Ideal) V c 2 t : Vec Ideal S2000x3 .f32) (ix2 p k) = (V c main_arg4 : Arr SE3) (ix2 e k) := by
  obtain ⟨-, -, ⟨e0, e1⟩, -⟩ := index_maps t
  unfold iblk1
  rw [View.read_apply]
  show V c main_arg4 _ = V c main_arg4 _
  congr 1
  funext a
  apply Fin.ext
  match a with
  | ⟨0, _⟩ => show win1_2.index t (0 : Fin 2) * 2000 + 1 * p.val = e.val; rw [e0, he]; omega
  | ⟨1, _⟩ => show win1_2.index t (1 : Fin 2) * 3 + 1 * k.val = k.val; rw [e1]; omega

/-- Row `p` of the gathered node rows' block at point `t` is row `2000 t + p` of the array. -/
theorem blk3_at (c : Dev nD) (t : Fin cfg1.N) (p : Fin 2000) (k : Fin 192) (e : Fin 800000) (he : e.val = 2000 * t.val + p.val) :
    (iblk1 (F := Ideal) V c 3 t : Vec Ideal S2000x192 .f32) (ix2 p k) = (V c main_v10 : Arr SE192) (ix2 e k) := by
  obtain ⟨-, -, -, ⟨e0, e1⟩, -⟩ := index_maps t
  unfold iblk1
  rw [View.read_apply]
  show V c main_v10 _ = V c main_v10 _
  congr 1
  funext a
  apply Fin.ext
  match a with
  | ⟨0, _⟩ => show win1_3.index t (0 : Fin 2) * 2000 + 1 * p.val = e.val; rw [e0, he]; omega
  | ⟨1, _⟩ => show win1_3.index t (1 : Fin 2) * 192 + 1 * k.val = k.val; rw [e1]; omega

/-- Row `p` of the gathered vector features' block at point `t` is row `2000 t + p` of the array. -/
theorem blk4_at (c : Dev nD) (t : Fin cfg1.N) (p : Fin 2000) (k : Fin 192) (e : Fin 800000) (he : e.val = 2000 * t.val + p.val) :
    (iblk1 (F := Ideal) V c 4 t : Vec Ideal S2000x192 .f32) (ix2 p k) = (V c main_v11 : Arr SE192) (ix2 e k) := by
  obtain ⟨-, -, -, -, ⟨e0, e1⟩, -⟩ := index_maps t
  unfold iblk1
  rw [View.read_apply]
  show V c main_v11 _ = V c main_v11 _
  congr 1
  funext a
  apply Fin.ext
  match a with
  | ⟨0, _⟩ => show win1_4.index t (0 : Fin 2) * 2000 + 1 * p.val = e.val; rw [e0, he]; omega
  | ⟨1, _⟩ => show win1_4.index t (1 : Fin 2) * 192 + 1 * k.val = k.val; rw [e1]; omega

/-- The weight matrix's block at every point is the whole matrix. -/
theorem blk5_at (c : Dev nD) (t : Fin cfg1.N) (k : Fin 32) (j : Fin 192) :
    (iblk1 (F := Ideal) V c 5 t : Vec Ideal S32x192 .f32) (ix2 k j) = (V c main_arg10 : Arr S32x192) (ix2 k j) := by
  obtain ⟨-, -, -, -, -, ⟨e0, e1⟩, -⟩ := index_maps t
  unfold iblk1
  rw [View.read_apply]
  show V c main_arg10 _ = V c main_arg10 _
  congr 1
  funext a
  apply Fin.ext
  match a with
  | ⟨0, _⟩ => show win1_5.index t (0 : Fin 2) * 32 + 1 * k.val = k.val; rw [e0]; omega
  | ⟨1, _⟩ => show win1_5.index t (1 : Fin 2) * 192 + 1 * j.val = j.val; rw [e1]; omega

/-- The bias row's block at every point is the whole row. -/
theorem blk6_at (c : Dev nD) (t : Fin cfg1.N) (j : Fin 192) :
    (iblk1 (F := Ideal) V c 6 t : Vec Ideal S1x192 .f32) (ix2 (0 : Fin 1) j) = (V c main_v6 : Arr S1x192) (ix2 (0 : Fin 1) j) := by
  obtain ⟨-, -, -, -, -, -, ⟨e0, e1⟩, -⟩ := index_maps t
  unfold iblk1
  rw [View.read_apply]
  show V c main_v6 _ = V c main_v6 _
  congr 1
  funext a
  apply Fin.ext
  match a with
  | ⟨0, _⟩ => show win1_6.index t (0 : Fin 2) * 1 + 1 * 0 = 0; rw [e0]
  | ⟨1, _⟩ => show win1_6.index t (1 : Fin 2) * 192 + 1 * j.val = j.val; rw [e1]; omega

/-- What point `t` writes back is block `t` of the edge transform of the arrays as the region finds them. -/
theorem flushed_eq (c : Dev nD) (t : Fin cfg1.N) :
    (dat1 (F := Ideal) V c).flushed 7 t = ((cfg1.win 7).blk t).view.read (Elt Ideal)
      (edgeOut (V c main_arg2) (V c main_v7) (V c main_arg4) (V c main_v10) (V c main_v11) (V c main_arg10) (V c main_v6)) := by
  show (cfg1.win 7).cut (grid1.coords t) ((dat1 V c).after 7 t) = _
  rw [after1_7]
  unfold out1_7
  rw [View.canon_unit_zero zero_offsets]
  simp only [View.ld_unit_zero (S := S2000x32) zero_offsets, View.ld_unit_zero (S := S32x192) zero_offsets,
    View.ld_unit_zero (S := S1x192) zero_offsets, View.ld_unit_zero (S := S2000x1) zero_offsets,
    View.ld_unit_zero (S := S2000x192) zero_offsets, View.ld_unit_zero (S := S2000x3) zero_offsets]
  obtain ⟨-, -, -, -, -, -, -, ⟨e0, e1⟩⟩ := index_maps t
  funext j
  show k1_pay1 (iblk1 V c 0 t) (iblk1 V c 5 t) (iblk1 V c 6 t) (iblk1 V c 1 t) (iblk1 V c 3 t) (iblk1 V c 4 t) (iblk1 V c 2 t) j
    = edgeOut (V c main_arg2) (V c main_v7) (V c main_arg4) (V c main_v10) (V c main_v11) (V c main_arg10) (V c main_v6)
        (((cfg1.win 7).blk t).view.emb j)
  refine out_row _ _ _ _ _ _ _ (iblk1 V c 0 t) (iblk1 V c 1 t) (iblk1 V c 2 t) (iblk1 V c 3 t) (iblk1 V c 4 t) (iblk1 V c 5 t)
    (iblk1 V c 6 t) t.val (fun p k e he => blk0_at V c t p k e he) (fun p e he => blk1_at V c t p e he)
    (fun p k e he => blk2_at V c t p k e he) (fun p k e he => blk3_at V c t p k e he) (fun p k e he => blk4_at V c t p k e he)
    (fun k j => blk5_at V c t k j) (fun j => blk6_at V c t j) j _ ?_ ?_
  · show win1_7.index t (0 : Fin 2) * 2000 + 1 * (j 0).val = 2000 * t.val + (j 0).val; rw [e0]; omega
  · show win1_7.index t (1 : Fin 2) * 256 + 1 * (j 1).val = (j 1).val; rw [e1]; omega

/-- An index of the result array is in point `t`'s block iff each coordinate is in the block's range on its axis. -/
theorem mem_blk (t : Fin cfg1.N) (i : S800000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v12).slice (win1_7.rect t)).set ↔ _
  rw [View.set_slice_whole, Rect.mem_set_unit]
  exact Iff.rfl

/-- Row `r` of the result lies in the block of point `r / 2000`. -/
theorem cover (i : S800000x256.Idx) : ∃ t : Fin cfg1.N, (cfg1.win 7).flush t = true ∧ i ∈ ((cfg1.win 7).blk t).view.set := by
  have h0 : (i 0).val < 800000 := (i 0).isLt
  have h1 : (i 1).val < 256 := (i 1).isLt
  have ht : (i 0).val / 2000 < cfg1.N := lt_of_lt_of_eq (show (i 0).val / 2000 < 400 by omega) N_1.symm
  obtain ⟨-, -, -, -, -, -, -, ⟨e0, e1⟩⟩ := index_maps ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 256 ≤ (i 1).val
      ∧ (i 1).val < win1_7.index ⟨(i 0).val / 2000, ht⟩ (1 : Fin 2) * 256 + 256
    rw [e1]; omega

/-- After the region the result array holds the edge transform of the seven arrays the region was entered with. -/
theorem edge_arr (c : Dev nD) :
    (dat1 (F := Ideal) V c).arrAt 7 cfg1.N
      = Cert.Msg.edgeOut (V c main_arg2) (V c main_v7) (V c main_arg4) (V c main_v10) (V c main_v11) (V c main_arg10) (V c main_v6) :=
  (dat1 (F := Ideal) V c).arrAt_eq_of_cover 7 _ (fun t _ => flushed_eq V c t) cover

end Cert.KernelIdeal.EdgeValue

end
-- ==== Proof.IndexRange.lean ====
/-
  Under the precondition every source-node index lies in [-50000, 50000): counted from the end when negative, it
  names a row of the 50000-row node arrays. Then the wrapped index lies in [0, 49999], the range test of the row
  lookup passes at every edge, and the lookup is the plain row gather.
-/
import proofs.«410702_j40475771797587_3_alg».proof.Proof.Take
import proofs.«410702_j40475771797587_3_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Gen Idealize.ShloMosaic Idealize.ShloMosaic.ValueIdx

/-! ## Words -/

private theorem toInt_neg50000 : (4294917296#32 : BitVec 32).toInt = -50000 := by decide
private theorem toInt_50000 : (50000#32 : BitVec 32).toInt = 50000 := by decide
private theorem toInt_zero32 : (0#32 : BitVec 32).toInt = 0 := by decide
private theorem toInt_49999 : (49999#32 : BitVec 32).toInt = 49999 := by decide

/-- A word x with -50000 ≤ x < 50000, with 50000 added when it is negative, lies in [0, 49999]: for negative x the sum
    x + 50000 lies in [0, 50000), far from the wrap of 32-bit addition, and a nonnegative x is kept as it is. Stated as
    the two compares of the range test both giving the bit 1. -/
private theorem wrap_word (x : BitVec 32) (h0 : -50000 ≤ x.toInt) (h1 : x.toInt < 50000) :
    IntOp.andi
      (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  rw [IntOp.andi_eq_one, IntOp.cmpi_sge, IntOp.cmpi_sle, toInt_zero32, toInt_49999]
  by_cases hneg : x.toInt < 0
  · have hc : IntOp.cmpi .slt x 0#32 = 1#1 := IntOp.cmpi_slt.2 (by rw [toInt_zero32]; exact hneg)
    rw [hc, select_one]
    have hadd : (IntOp.addi x 50000#32).toInt = x.toInt + 50000 := by
      show (x + 50000#32).toInt = _
      rw [BitVec.toInt_add, toInt_50000]
      exact Int.bmod_eq_of_le_mul_two (by omega) (by omega)
    rw [hadd]; omega
  · have hc : IntOp.cmpi .slt x 0#32 = 0#1 :=
      eq_zero_of_ne_one (fun h => hneg (by have := IntOp.cmpi_slt.1 h; rwa [toInt_zero32] at this))
    rw [hc, select_zero]; omega

/-! ## A conjunction over an axis -/

/-- A left fold by `and` from the bit 1 over bits that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and` from the constant 1 of an array of bits that are all 1 is 1 at every result index, whatever
    the reduced axes. -/
private theorem reduce_andi_one {s t u : Shape} {axes : List (Fin s.rank)} (x : s.Idx → BitVec 1) (h : s.ReducesTo axes t)
    (hu : 0 < u.numel) (hx : ∀ i, x i = 1#1) (k : t.Idx) :
    Host.reduce IntOp.andi x (constantI u 1 1#1) h hu k = 1#1 := by
  rw [Host.reduce_eq_foldl]
  exact foldl_andi_one x hx _

/-! ## The precondition's index range -/

private instance : Subsingleton Cert.Pre_finite_inputs.S_.Idx := ⟨fun a b => funext fun d => d.elim0⟩

/-- The precondition's last conjunct, decoded: every entry of the source-node row is at least -50000 and below
    50000, read as a signed integer. -/
theorem sources_range (a0 : FVec Ideal S50000x64 .f32) (a1 : FVec Ideal S50000x3x64 .f32) (a2 : FVec Ideal S800000x32 .f32)
    (a3 : FVec Ideal S800000 .f32) (a4 : FVec Ideal S800000x3 .f32) (a5 : IVec S2x800000 32) (a6 : FVec Ideal S64x64 .f32)
    (a7 : FVec Ideal S64 .f32) (a8 : FVec Ideal S64x192 .f32) (a9 : FVec Ideal S192 .f32) (a10 : FVec Ideal S32x192 .f32)
    (a11 : FVec Ideal S192 .f32)
    (h : Cert.Pre_finite_inputs.fn (F := Ideal) a0 a1 a2 a3 a4 a5 a6 a7 a8 a9 a10 a11 = fun _ => 1#1) :
    ∀ e : Fin 800000, -50000 ≤ (sources a5 (ix1 e)).toInt ∧ (sources a5 (ix1 e)).toInt < 50000 := by
  -- the predicate is a chain of conjunctions; its outermost conjunct is the reduction of the range test over all entries
  have h0 := congrFun h ix0
  dsimp only [Cert.Pre_finite_inputs.fn, Cert.Pre_finite_inputs.fn_part1, Cert.Pre_finite_inputs.fn_part2,
    Cert.Pre_finite_inputs.fn_part3] at h0
  have hall := (IntOp.andi_eq_one.1 h0).2
  intro e
  -- a conjunction over all entries that is 1 is 1 at entry e; there it is the conjunction of the two compares
  have he := Host.reduce_andi_all _ _ _ _ _ hall (ix1 e)
  obtain ⟨hge, hlt⟩ := IntOp.andi_eq_one.1 he
  have hge' := IntOp.cmpi_sge.1 hge
  have hlt' := IntOp.cmpi_slt.1 hlt
  -- the two bounds are the constants -50000 and 50000 read at entry e
  exact ⟨toInt_neg50000 ▸ hge', toInt_50000 ▸ hlt'⟩

/-! ## The lookup under the range -/

/-- With every index in [-50000, 50000) the range test passes everywhere, so the lookup keeps every gathered row. -/
theorem take_eq_rows (x : FVec Ideal S50000x192 .f32) (j : IVec S800000 32)
    (hj : ∀ e : Fin 800000, -50000 ≤ (j (ix1 e)).toInt ∧ (j (ix1 e)).toInt < 50000) :
    take x j = rows x j := by
  -- the range holds at every index of the list, whichever way the index is written
  have hj' : ∀ q : S800000.Idx, -50000 ≤ (j q).toInt ∧ (j q).toInt < 50000 := fun q => by
    rw [congrArg j (eq_ix1 q)]
    exact hj (q 0)
  -- so the two compares of the wrapped index both pass at every row of the one-column array …
  have hrow : ∀ p : S800000x1.Idx,
      andi (cmpi .sge (wrapIdx j) (broadcastInDim S800000x1 ![] bcast_S_S800000x1 (constantI S_ 32 0#32)))
        (cmpi .sle (wrapIdx j)
          (broadcastInDim S800000x1 ![0, 1] bcast_S1x1_S800000x1_0_1
            (broadcastInDim S1x1 ![1] bcast_S1_S1x1_1 (constantI S1 32 49999#32)))) p = 1#1 := fun p =>
by
    dsimp only [andi, cmpi, wrapIdx, broadcastInDim, select, addi, constantI]
    exact wrap_word _ (hj' _).1 (hj' _).2
  -- … and their conjunction along the column is 1 at every row, hence at every entry of the spread test
  have hin : ∀ i, inRange j i = 1#1 := fun i => by
    unfold inRange
    dsimp only [broadcastInDim]
    exact reduce_andi_one _ _ _ hrow _
  unfold take
  funext i
  rw [select_apply, hin i, select_one]

end Cert.KernelIdeal.Take

end
-- ==== Proof.LibRows.lean ====
/-
  Row gathers and row scatter-adds read at an index.

  A ROW GATHER takes, for every entry `e` of a list of start indices, the whole row of the operand that the entry
  names: the entry is read as a signed integer and clamped into the operand's row range. A ROW SCATTER-ADD adds,
  for every entry `e` of a list of indices, the whole update row `e` onto the operand row that the entry names; an
  entry that names no row of the operand contributes nothing. Read at one element, the gather is the operand at
  the clamped row, and the scatter-add is the operand's element plus the sum, over all entries naming its row, of
  the update rows' elements in the same column.

  The dimension numbers below are the ones an index array of shape [E, 1] along axis 0 produces, for operands of
  rank 2 ([N, C]) and of rank 3 ([N, A, B]).
-/
import Idealize.ShloMosaic.PureOps.Ideal
import Idealize.ShloMosaic.Lib.ValueIdx

noncomputable section

open scoped BigOperators

namespace Cert.LibRows

open Idealize.ShloMosaic Idealize.ShloMosaic.ValueIdx

/-! ## Row gather -/

/-- Row gather of a rank-2 operand `[N, C]` at start indices `[E, 1]`: result `[E, C]`. -/
abbrev gatherRows2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The clamped row a start index names: read signed, then clamped into `[0, N − 1]`. -/
def clampRow {w : Nat} (N : Nat) (hN : 0 < N) (x : BitVec w) : Fin N := ⟨min x.toInt.toNat (N - 1), by omega⟩

/-- The rank-2 row gather at `(e, j)`: the operand at the clamped row that entry `e` names, column `j`. -/
theorem gatherRows2_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (gatherRows2 N E C wf) x idx (ix2 e j) = x (ix2 (clampRow N hN (idx (ix2 e 0))) j) := by
  unfold Host.gather
  congr 1
  funext a
  refine Fin.ext ?_
  show (gatherRows2 N E C wf).start (ix2 e j) idx a + (gatherRows2 N E C wf).batchCoord (ix2 e j) a
    + (gatherRows2 N E C wf).offCoord (ix2 e j) a = _
  rw [GatherDims.batchCoord_eq_zero _ _ _ List.not_mem_nil]
  match a with
  | ⟨0, _⟩ =>
    show (gatherRows2 N E C wf).start (ix2 e j) idx (0 : Fin 2) + 0
      + (gatherRows2 N E C wf).offCoord (ix2 e j) (0 : Fin 2) = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N E C wf).startIndexMap from List.mem_singleton.mpr rfl)]
    have hsi : (gatherRows2 N E C wf).siIdx (ix2 e j) ⟨List.idxOf (0 : Fin 2) (gatherRows2 N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRows2 N E C wf).start (ix2 e j) idx (1 : Fin 2) + 0
      + (gatherRows2 N E C wf).offCoord (ix2 e j) (1 : Fin 2) = j.val
    have h1 : (1 : Fin 2) ∉ (gatherRows2 N E C wf).startIndexMap := by
      show (1 : Fin 2) ∉ [(0 : Fin 2)]; decide
    have h2 : (1 : Fin 2) ∈ (gatherRows2 N E C wf).sKept :=
      (GatherDims.mem_sKept _ _).2 ⟨by show (1 : Fin 2) ∉ [(0 : Fin 2)]; decide, List.not_mem_nil⟩
    unfold GatherDims.start GatherDims.offCoord
    rw [dif_neg h1, dif_pos h2]
    simp only [Nat.zero_add]
    rfl

/-- Row gather of a rank-3 operand `[N, A, B]` at start indices `[E, 1]`: result `[E, A, B]`. -/
abbrev gatherRows3 (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The rank-3 row gather at `(e, a, b)`: the operand at the clamped row that entry `e` names, at `(a, b)`. -/
theorem gatherRows3_apply {α : Type} {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (gatherRows3 N A B E wf) x idx (ix3 e a b) = x (ix3 (clampRow N hN (idx (ix2 e 0))) a b) := by
  unfold Host.gather
  congr 1
  funext c
  refine Fin.ext ?_
  show (gatherRows3 N A B E wf).start (ix3 e a b) idx c + (gatherRows3 N A B E wf).batchCoord (ix3 e a b) c
    + (gatherRows3 N A B E wf).offCoord (ix3 e a b) c = _
  rw [GatherDims.batchCoord_eq_zero _ _ _ List.not_mem_nil]
  match c with
  | ⟨0, _⟩ =>
    show (gatherRows3 N A B E wf).start (ix3 e a b) idx (0 : Fin 3) + 0
      + (gatherRows3 N A B E wf).offCoord (ix3 e a b) (0 : Fin 3) = _
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (gatherRows3 N A B E wf).startIndexMap from List.mem_singleton.mpr rfl)]
    have hsi : (gatherRows3 N A B E wf).siIdx (ix3 e a b) ⟨List.idxOf (0 : Fin 3) (gatherRows3 N A B E wf).startIndexMap,
        List.idxOf_lt_length_iff.2 (List.mem_singleton.mpr rfl)⟩ = ix2 e 0 := by
      funext k; refine Fin.ext ?_
      match k with
      | ⟨0, _⟩ => rfl
      | ⟨1, _⟩ => rfl
    rw [hsi]
    rfl
  | ⟨1, _⟩ =>
    show (gatherRows3 N A B E wf).start (ix3 e a b) idx (1 : Fin 3) + 0
      + (gatherRows3 N A B E wf).offCoord (ix3 e a b) (1 : Fin 3) = a.val
    have h1 : (1 : Fin 3) ∉ (gatherRows3 N A B E wf).startIndexMap := by
      show (1 : Fin 3) ∉ [(0 : Fin 3)]; decide
    have h2 : (1 : Fin 3) ∈ (gatherRows3 N A B E wf).sKept :=
      (GatherDims.mem_sKept _ _).2 ⟨by show (1 : Fin 3) ∉ [(0 : Fin 3)]; decide, List.not_mem_nil⟩
    unfold GatherDims.start GatherDims.offCoord
    rw [dif_neg h1, dif_pos h2]
    simp only [Nat.zero_add]
    rfl
  | ⟨2, _⟩ =>
    show (gatherRows3 N A B E wf).start (ix3 e a b) idx (2 : Fin 3) + 0
      + (gatherRows3 N A B E wf).offCoord (ix3 e a b) (2 : Fin 3) = b.val
    have h1 : (2 : Fin 3) ∉ (gatherRows3 N A B E wf).startIndexMap := by
      show (2 : Fin 3) ∉ [(0 : Fin 3)]; decide
    have h2 : (2 : Fin 3) ∈ (gatherRows3 N A B E wf).sKept :=
      (GatherDims.mem_sKept _ _).2 ⟨by show (2 : Fin 3) ∉ [(0 : Fin 3)]; decide, List.not_mem_nil⟩
    unfold GatherDims.start GatherDims.offCoord
    rw [dif_neg h1, dif_pos h2]
    simp only [Nat.zero_add]
    rfl

/-! ## Row scatter-add -/

/-- Row scatter of updates `[E, C]` into a rank-2 operand `[N, C]` at scatter indices `[E, 1]`. -/
abbrev scatterRows2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The scatter-indices index update index `j` reads its row entry at: `[j₀, 0]`. -/
private theorem scatterRows2_siIdx {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).siIdx j ⟨List.idxOf (0 : Fin 2) (scatterRows2 N E C wf).scatterDimsToOperandDims,
        List.idxOf_lt_length_iff.2 (List.mem_singleton.mpr rfl)⟩ = ix2 (j 0) 0 := by
  funext b; refine Fin.ext ?_
  match b with
  | ⟨0, _⟩ => rfl
  | ⟨1, _⟩ => rfl

/-- On the row axis the window starts at the entry, read signed … -/
private theorem scatterRows2_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scatterRows2 N E C wf).start j idx (0 : Fin 2) = (idx (ix2 (j 0) 0)).toInt := by
  unfold ScatterDims.start
  rw [dif_pos (show (0 : Fin 2) ∈ (scatterRows2 N E C wf).scatterDimsToOperandDims from List.mem_singleton.mpr rfl),
    scatterRows2_siIdx]
  rfl

/-- … and on the column axis at `0`. -/
private theorem scatterRows2_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scatterRows2 N E C wf).start j idx (1 : Fin 2) = 0 := by
  unfold ScatterDims.start
  rw [dif_neg (show (1 : Fin 2) ∉ [(0 : Fin 2)] by decide)]

/-- The window coordinate is `0` on the row axis … -/
private theorem scatterRows2_window0 {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).window j (0 : Fin 2) = 0 := by
  unfold ScatterDims.window
  rw [dif_neg]
  show (0 : Fin 2) ∉ (List.finRange 2).filter (· ∉ [(0 : Fin 2)])
  decide

/-- … and the update's column on the column axis. -/
private theorem scatterRows2_window1 {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).window j (1 : Fin 2) = (j 1).val := by
  have h : (1 : Fin 2) ∈ (scatterRows2 N E C wf).sKept := by
    show (1 : Fin 2) ∈ (List.finRange 2).filter (· ∉ [(0 : Fin 2)])
    decide
  unfold ScatterDims.window
  rw [dif_pos h]
  rfl

/-- Update index `j` lands on operand index `i` exactly when its row entry, read signed, is `i`'s row and its
    column is `i`'s column. -/
private theorem scatterRows2_resultIdx_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (scatterRows2 N E C wf).resultIdx? j idx = some i
      ↔ (idx (ix2 (j 0) 0)).toInt = ((i 0).val : Int) ∧ (j 1).val = (i 1).val := by
  have hi0 := idx2_lt0 i
  have hi1 := idx2_lt1 i
  have hj1 := idx2_lt1 j
  unfold ScatterDims.resultIdx?
  constructor
  · intro h
    split at h
    · rename_i hh
      have h' := Option.some.inj h
      have h0 := congrArg (fun f => (f (0 : Fin 2)).val) h'
      have h1 := congrArg (fun f => (f (1 : Fin 2)).val) h'
      have hh0 := hh (0 : Fin 2)
      have hh1 := hh (1 : Fin 2)
      simp only [scatterRows2_start0, scatterRows2_start1, scatterRows2_window0, scatterRows2_window1] at h0 h1 hh0 hh1
      constructor <;> omega
    · exact absurd h (by simp)
  · rintro ⟨h0, h1⟩
    have hh : ∀ a, 0 ≤ (scatterRows2 N E C wf).start j idx a + ((scatterRows2 N E C wf).window j a : Int)
        ∧ (scatterRows2 N E C wf).start j idx a + ((scatterRows2 N E C wf).window j a : Int)
          < ((⟨2, ![N, C]⟩ : Shape).size a : Int) := by
      intro a
      match a with
      | ⟨0, _⟩ =>
        show 0 ≤ (scatterRows2 N E C wf).start j idx (0 : Fin 2) + ((scatterRows2 N E C wf).window j (0 : Fin 2) : Int)
          ∧ (scatterRows2 N E C wf).start j idx (0 : Fin 2) + ((scatterRows2 N E C wf).window j (0 : Fin 2) : Int) < (N : Int)
        rw [scatterRows2_start0, scatterRows2_window0]
        omega
      | ⟨1, _⟩ =>
        show 0 ≤ (scatterRows2 N E C wf).start j idx (1 : Fin 2) + ((scatterRows2 N E C wf).window j (1 : Fin 2) : Int)
          ∧ (scatterRows2 N E C wf).start j idx (1 : Fin 2) + ((scatterRows2 N E C wf).window j (1 : Fin 2) : Int) < (C : Int)
        rw [scatterRows2_start1, scatterRows2_window1]
        omega
    rw [dif_pos hh]
    congr 1
    funext a
    refine Fin.ext ?_
    match a with
    | ⟨0, _⟩ =>
      show ((scatterRows2 N E C wf).start j idx (0 : Fin 2) + ((scatterRows2 N E C wf).window j (0 : Fin 2) : Int)).toNat
        = (i 0).val
      rw [scatterRows2_start0, scatterRows2_window0]
      omega
    | ⟨1, _⟩ =>
      show ((scatterRows2 N E C wf).start j idx (1 : Fin 2) + ((scatterRows2 N E C wf).window j (1 : Fin 2) : Int)).toNat
        = (i 1).val
      rw [scatterRows2_start1, scatterRows2_window1]
      omega

/-- The rank-2 row scatter-add at `(n, j)`: the operand's element plus the sum over the entries `e` whose index,
    read signed, is `n`, of update row `e` at column `j`. -/
theorem scatterAddRows2_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (j : Fin C) :
    Ideal.hostScatterAdd (scatterRows2 N E C wf) x idx upd (ix2 n j)
      = x (ix2 n j) + ∑ e : Fin E, if (idx (ix2 e 0)).toInt = (n.val : Int) then upd (ix2 e j) else 0 := by
  unfold Ideal.hostScatterAdd
  congr 1
  rw [Finset.sum_filter, sum_idx2]
  refine Finset.sum_congr rfl fun e _ => ?_
  have key : ∀ b : Fin C,
      (if (scatterRows2 N E C wf).resultIdx? (ix2 e b) idx = some (ix2 n j) then upd (ix2 e b) else 0)
        = if (idx (ix2 e 0)).toInt = (n.val : Int) then (if b = j then upd (ix2 e b) else 0) else 0 := by
    intro b
    simp only [scatterRows2_resultIdx_iff, ite_and]
    show (if (idx (ix2 e 0)).toInt = (n.val : Int) then (if b.val = j.val then upd (ix2 e b) else 0) else 0) = _
    simp only [Fin.val_inj]
  rw [Finset.sum_congr rfl fun b _ => key b]
  by_cases h : (idx (ix2 e 0)).toInt = (n.val : Int)
  · simp only [if_pos h, Finset.sum_ite_eq', Finset.mem_univ, if_true]
  · simp only [if_neg h, Finset.sum_const_zero]

/-- Row scatter of updates `[E, A, B]` into a rank-3 operand `[N, A, B]` at scatter indices `[E, 1]`. -/
abbrev scatterRows3 (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- A rank-3 index's coordinates are below the extents, written as the extents themselves. -/
private theorem idx3_lt0 {n0 n1 n2 : Nat} (j : (⟨3, ![n0, n1, n2]⟩ : Shape).Idx) : (j 0).val < n0 := (j 0).isLt
private theorem idx3_lt1 {n0 n1 n2 : Nat} (j : (⟨3, ![n0, n1, n2]⟩ : Shape).Idx) : (j 1).val < n1 := (j 1).isLt
private theorem idx3_lt2 {n0 n1 n2 : Nat} (j : (⟨3, ![n0, n1, n2]⟩ : Shape).Idx) : (j 2).val < n2 := (j 2).isLt

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The scatter-indices index update index `j` reads its row entry at: `[j₀, 0]`. -/
private theorem scatterRows3_siIdx {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).siIdx j ⟨List.idxOf (0 : Fin 3) (scatterRows3 N A B E wf).scatterDimsToOperandDims,
        List.idxOf_lt_length_iff.2 (List.mem_singleton.mpr rfl)⟩ = ix2 (j 0) 0 := by
  funext b; refine Fin.ext ?_
  match b with
  | ⟨0, _⟩ => rfl
  | ⟨1, _⟩ => rfl

/-- On the row axis the window starts at the entry, read signed … -/
private theorem scatterRows3_start0 {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) :
    (scatterRows3 N A B E wf).start j idx (0 : Fin 3) = (idx (ix2 (j 0) 0)).toInt := by
  unfold ScatterDims.start
  rw [dif_pos (show (0 : Fin 3) ∈ (scatterRows3 N A B E wf).scatterDimsToOperandDims from List.mem_singleton.mpr rfl),
    scatterRows3_siIdx]
  rfl

/-- … and on the two window axes at `0`. -/
private theorem scatterRows3_start1 {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) :
    (scatterRows3 N A B E wf).start j idx (1 : Fin 3) = 0 := by
  unfold ScatterDims.start
  rw [dif_neg (show (1 : Fin 3) ∉ [(0 : Fin 3)] by decide)]
private theorem scatterRows3_start2 {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) :
    (scatterRows3 N A B E wf).start j idx (2 : Fin 3) = 0 := by
  unfold ScatterDims.start
  rw [dif_neg (show (2 : Fin 3) ∉ [(0 : Fin 3)] by decide)]

/-- The window coordinate is `0` on the row axis … -/
private theorem scatterRows3_window0 {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).window j (0 : Fin 3) = 0 := by
  unfold ScatterDims.window
  rw [dif_neg]
  show (0 : Fin 3) ∉ (List.finRange 3).filter (· ∉ [(0 : Fin 3)])
  decide

/-- … and the update's own coordinate on each window axis. -/
private theorem scatterRows3_window1 {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).window j (1 : Fin 3) = (j 1).val := by
  have h : (1 : Fin 3) ∈ (scatterRows3 N A B E wf).sKept := by
    show (1 : Fin 3) ∈ (List.finRange 3).filter (· ∉ [(0 : Fin 3)])
    decide
  unfold ScatterDims.window
  rw [dif_pos h]
  rfl
private theorem scatterRows3_window2 {N A B E : Nat}
    (wf : ScatterDims.WF ⟨3, ![N, A, B]⟩ ⟨2, ![E, 1]⟩ ⟨3, ![E, A, B]⟩ [1, 2] [0] [0] 1)
    (j : (⟨3, ![E, A, B]⟩ : Shape).Idx) :
    (scatterRows3 N A B E wf).window j (2 : Fin 3) = (j 2).val := by
  have h : (2 : Fin 3) ∈ (scatterRows3 N A B E wf).sKept := by
    show (2 : Fin 3) ∈ (List.finRange 3).filter (· ∉ [(0 : Fin 3)])
    decide
  unfold ScatterDims.window
  rw [dif_pos h]
  rfl

/-- Update index `j` lands on operand index `i` exactly when its row entry, read signed, is `i`'s row and its two
    window coordinates are `i`'s. -/
private theorem scatterRows3_resultIdx_iff {N A B E w : Nat}
    (wf : ScatterDims.WF ⟨3, ![N, A, B]⟩ ⟨2, ![E, 1]⟩ ⟨3, ![E, A, B]⟩ [1, 2] [0] [0] 1)
    (idx : IVec ⟨2, ![E, 1]⟩ w) (j : (⟨3, ![E, A, B]⟩ : Shape).Idx) (i : (⟨3, ![N, A, B]⟩ : Shape).Idx) :
    (scatterRows3 N A B E wf).resultIdx? j idx = some i
      ↔ (idx (ix2 (j 0) 0)).toInt = ((i 0).val : Int) ∧ (j 1).val = (i 1).val ∧ (j 2).val = (i 2).val := by
  have hi0 := idx3_lt0 i
  have hi1 := idx3_lt1 i
  have hi2 := idx3_lt2 i
  have hj1 := idx3_lt1 j
  have hj2 := idx3_lt2 j
  unfold ScatterDims.resultIdx?
  constructor
  · intro h
    split at h
    · rename_i hh
      have h' := Option.some.inj h
      have h0 := congrArg (fun f => (f (0 : Fin 3)).val) h'
      have h1 := congrArg (fun f => (f (1 : Fin 3)).val) h'
      have h2 := congrArg (fun f => (f (2 : Fin 3)).val) h'
      have hh0 := hh (0 : Fin 3)
      have hh1 := hh (1 : Fin 3)
      have hh2 := hh (2 : Fin 3)
      simp only [scatterRows3_start0, scatterRows3_start1, scatterRows3_start2, scatterRows3_window0,
        scatterRows3_window1, scatterRows3_window2] at h0 h1 h2 hh0 hh1 hh2
      refine ⟨?_, ?_, ?_⟩ <;> omega
    · exact absurd h (by simp)
  · rintro ⟨h0, h1, h2⟩
    have hh : ∀ a, 0 ≤ (scatterRows3 N A B E wf).start j idx a + ((scatterRows3 N A B E wf).window j a : Int)
        ∧ (scatterRows3 N A B E wf).start j idx a + ((scatterRows3 N A B E wf).window j a : Int)
          < ((⟨3, ![N, A, B]⟩ : Shape).size a : Int) := by
      intro a
      match a with
      | ⟨0, _⟩ =>
        show 0 ≤ (scatterRows3 N A B E wf).start j idx (0 : Fin 3) + ((scatterRows3 N A B E wf).window j (0 : Fin 3) : Int)
          ∧ (scatterRows3 N A B E wf).start j idx (0 : Fin 3) + ((scatterRows3 N A B E wf).window j (0 : Fin 3) : Int) < (N : Int)
        rw [scatterRows3_start0, scatterRows3_window0]
        omega
      | ⟨1, _⟩ =>
        show 0 ≤ (scatterRows3 N A B E wf).start j idx (1 : Fin 3) + ((scatterRows3 N A B E wf).window j (1 : Fin 3) : Int)
          ∧ (scatterRows3 N A B E wf).start j idx (1 : Fin 3) + ((scatterRows3 N A B E wf).window j (1 : Fin 3) : Int) < (A : Int)
        rw [scatterRows3_start1, scatterRows3_window1]
        omega
      | ⟨2, _⟩ =>
        show 0 ≤ (scatterRows3 N A B E wf).start j idx (2 : Fin 3) + ((scatterRows3 N A B E wf).window j (2 : Fin 3) : Int)
          ∧ (scatterRows3 N A B E wf).start j idx (2 : Fin 3) + ((scatterRows3 N A B E wf).window j (2 : Fin 3) : Int) < (B : Int)
        rw [scatterRows3_start2, scatterRows3_window2]
        omega
    rw [dif_pos hh]
    congr 1
    funext a
    refine Fin.ext ?_
    match a with
    | ⟨0, _⟩ =>
      show ((scatterRows3 N A B E wf).start j idx (0 : Fin 3) + ((scatterRows3 N A B E wf).window j (0 : Fin 3) : Int)).toNat
        = (i 0).val
      rw [scatterRows3_start0, scatterRows3_window0]
      omega
    | ⟨1, _⟩ =>
      show ((scatterRows3 N A B E wf).start j idx (1 : Fin 3) + ((scatterRows3 N A B E wf).window j (1 : Fin 3) : Int)).toNat
        = (i 1).val
      rw [scatterRows3_start1, scatterRows3_window1]
      omega
    | ⟨2, _⟩ =>
      show ((scatterRows3 N A B E wf).start j idx (2 : Fin 3) + ((scatterRows3 N A B E wf).window j (2 : Fin 3) : Int)).toNat
        = (i 2).val
      rw [scatterRows3_start2, scatterRows3_window2]
      omega

/-- The rank-3 row scatter-add at `(n, a, b)`: the operand's element plus the sum over the entries `e` whose index,
    read signed, is `n`, of update row `e` at `(a, b)`. -/
theorem scatterAddRows3_apply {N A B E w : Nat}
    (wf : ScatterDims.WF ⟨3, ![N, A, B]⟩ ⟨2, ![E, 1]⟩ ⟨3, ![E, A, B]⟩ [1, 2] [0] [0] 1)
    (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (scatterRows3 N A B E wf) x idx upd (ix3 n a b)
      = x (ix3 n a b) + ∑ e : Fin E, if (idx (ix2 e 0)).toInt = (n.val : Int) then upd (ix3 e a b) else 0 := by
  unfold Ideal.hostScatterAdd
  congr 1
  rw [Finset.sum_filter, sum_idx3]
  refine Finset.sum_congr rfl fun e _ => ?_
  have key : ∀ (p : Fin A) (q : Fin B),
      (if (scatterRows3 N A B E wf).resultIdx? (ix3 e p q) idx = some (ix3 n a b) then upd (ix3 e p q) else 0)
        = if (idx (ix2 e 0)).toInt = (n.val : Int) then
            (if p = a then (if q = b then upd (ix3 e p q) else 0) else 0) else 0 := by
    intro p q
    simp only [scatterRows3_resultIdx_iff, ite_and]
    show (if (idx (ix2 e 0)).toInt = (n.val : Int) then
        (if p.val = a.val then (if q.val = b.val then upd (ix3 e p q) else 0) else 0) else 0) = _
    simp only [Fin.val_inj]
  rw [Finset.sum_congr rfl fun p _ => Finset.sum_congr rfl fun q _ => key p q]
  by_cases h : (idx (ix2 e 0)).toInt = (n.val : Int)
  · simp only [if_pos h]
    have inner : ∀ p : Fin A,
        (∑ q : Fin B, if p = a then (if q = b then upd (ix3 e p q) else 0) else 0)
          = if p = a then upd (ix3 e p b) else 0 := by
      intro p
      by_cases hp : p = a
      · simp only [if_pos hp, Finset.sum_ite_eq', Finset.mem_univ, if_true]
      · simp only [if_neg hp, Finset.sum_const_zero]
    simp only [inner, Finset.sum_ite_eq', Finset.mem_univ, if_true]
  · simp only [if_neg h, Finset.sum_const_zero]

end Cert.LibRows

end
-- ==== Proof.Bridge.lean ====
/-
  Small bridges between the two programs' spellings of the same arrays.

  * A vector reshaped to a one-row or a one-column matrix holds the vector's entries.
  * The kernel program's row gather at the wrapped source nodes is the reference's gather of the same array: the
    two programs wrap the negative indices the same way and gather with the same dimension numbers.
  * The kernel program gathers the vector features re-laid as 192-wide rows; the reference gathers them as
    3 × 64 rows. Both read the clamped row the wrapped index names, and column 64 c + f of the 192-wide row is
    entry (c, f) of the 3 × 64 row.
  * The target nodes as a one-column index array: the same in both programs.
-/
import proofs.«410702_j40475771797587_3_alg».proof.Proof.Take
import proofs.«410702_j40475771797587_3_alg».proof.Proof.Gen.ReferenceIdeal.Read
import proofs.«410702_j40475771797587_3_alg».proof.Proof.Spec
import proofs.«410702_j40475771797587_3_alg».proof.Proof.LibRows
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx Cert.Msg

/-! ## Vectors as one-row and one-column matrices -/

theorem row_64 (b : Arr ⟨1, ![64]⟩) : shapeCast Cert.KernelIdeal.S1x64 b Cert.KernelIdeal.Gen.shapeCasts_S64_S1x64 = row1 b := by
  funext i
  obtain ⟨u, j, rfl⟩ : ∃ u j, i = ix2 u j := ⟨i 0, i 1, eq_ix2 i⟩
  exact shapeCast_a_1a_apply b Cert.KernelIdeal.Gen.shapeCasts_S64_S1x64 u j

theorem row_192 (b : Arr ⟨1, ![192]⟩) : shapeCast Cert.KernelIdeal.S1x192 b Cert.KernelIdeal.Gen.shapeCasts_S192_S1x192 = row1 b := by
  funext i
  obtain ⟨u, j, rfl⟩ : ∃ u j, i = ix2 u j := ⟨i 0, i 1, eq_ix2 i⟩
  exact shapeCast_a_1a_apply b Cert.KernelIdeal.Gen.shapeCasts_S192_S1x192 u j

theorem col_800000 (f : Arr ⟨1, ![800000]⟩) :
    shapeCast Cert.KernelIdeal.S800000x1 f Cert.KernelIdeal.Gen.shapeCasts_S800000_S800000x1 = col1 f := by
  funext i
  unfold col1
  refine shapeCast_apply f Cert.KernelIdeal.Gen.shapeCasts_S800000_S800000x1 i (ix1 (i 0)) ?_
  rw [Shape.rowMajor_val_two, Shape.rowMajor_val_one]
  have h1 : (i 1).val < 1 := idx2_lt1 i
  show (i 0).val = (i 0).val * 1 + (i 1).val
  omega

/-! ## The gathers -/

/-- The kernel program's wrapped source nodes are the reference's. -/
theorem wrap_sources (x5 : IVec ⟨2, ![2, 800000]⟩ 32) :
    Cert.KernelIdeal.Take.wrapIdx (Cert.KernelIdeal.Take.sources x5) = Cert.ReferenceIdeal.Read.val_main_v25 (F := Ideal) x5 := by
  unfold Cert.KernelIdeal.Take.wrapIdx Cert.KernelIdeal.Take.sources
  unfold Cert.ReferenceIdeal.Read.val_main_v25 Cert.ReferenceIdeal.Read.val_main_v24 Cert.ReferenceIdeal.Read.val_main_v23
    Cert.ReferenceIdeal.Read.val_main_v22 Cert.ReferenceIdeal.Read.val_main_v21 Cert.ReferenceIdeal.Read.val_main_v20
    Cert.ReferenceIdeal.Read.val_main_v3 Cert.ReferenceIdeal.Read.val_main_v2 Cert.ReferenceIdeal.Read.val_main_c
    Cert.ReferenceIdeal.Read.val_main_c_0
  rfl

/-- The kernel program's gather record is the rank-2 row gather. -/
private theorem kernel_gather_eq :
    Cert.KernelIdeal.gather_S50000x192_S800000x1_S800000x192_1_0_n_n_0_1_1192
      = Cert.LibRows.gatherRows2 50000 800000 192
          Cert.KernelIdeal.Gen.gather_S50000x192_S800000x1_S800000x192_1_0_n_n_0_1_1192_wf := rfl

/-- The reference's gather record of the 192-channel array is the same rank-2 row gather. -/
private theorem reference_gather_eq :
    Cert.ReferenceIdeal.gather_S50000x192_S800000x1_S800000x192_1_0_n_n_0_1_1192
      = Cert.LibRows.gatherRows2 50000 800000 192
          Cert.KernelIdeal.Gen.gather_S50000x192_S800000x1_S800000x192_1_0_n_n_0_1_1192_wf := rfl

/-- The reference's gather record of the 3 × 64 array is the rank-3 row gather. -/
private theorem reference_gather3_eq :
    Cert.ReferenceIdeal.gather_S50000x3x64_S800000x1_S800000x3x64_12_0_n_n_0_1_1364
      = Cert.LibRows.gatherRows3 50000 3 64 800000
          Cert.ReferenceIdeal.Gen.gather_S50000x3x64_S800000x1_S800000x3x64_12_0_n_n_0_1_1364_wf := rfl

/-- The kernel program's gather of a 192-channel node array at the source nodes is the reference's. -/
theorem rows_nodes (p : Arr SN192) (x5 : IVec ⟨2, ![2, 800000]⟩ 32) :
    Cert.KernelIdeal.Take.rows p (Cert.KernelIdeal.Take.sources x5)
      = Host.gather Cert.ReferenceIdeal.gather_S50000x192_S800000x1_S800000x192_1_0_n_n_0_1_1192 p
          (Cert.ReferenceIdeal.Read.val_main_v25 (F := Ideal) x5) := by
  unfold Cert.KernelIdeal.Take.rows
  rw [wrap_sources, kernel_gather_eq, reference_gather_eq]

/-- The reference's second wrapping of the source nodes is the kernel program's. -/
private theorem wrap_sources' (x5 : IVec ⟨2, ![2, 800000]⟩ 32) :
    Cert.ReferenceIdeal.Read.val_main_v39 (F := Ideal) x5 = Cert.KernelIdeal.Take.wrapIdx (Cert.KernelIdeal.Take.sources x5) := by
  unfold Cert.KernelIdeal.Take.wrapIdx Cert.KernelIdeal.Take.sources
  unfold Cert.ReferenceIdeal.Read.val_main_v39 Cert.ReferenceIdeal.Read.val_main_v38 Cert.ReferenceIdeal.Read.val_main_v37
    Cert.ReferenceIdeal.Read.val_main_v36 Cert.ReferenceIdeal.Read.val_main_v35 Cert.ReferenceIdeal.Read.val_main_v34
    Cert.ReferenceIdeal.Read.val_main_v3 Cert.ReferenceIdeal.Read.val_main_v2 Cert.ReferenceIdeal.Read.val_main_c_1
    Cert.ReferenceIdeal.Read.val_main_c_2
  rfl

/-- The kernel program's gather of the vector features re-laid as 192-wide rows holds, at column 64 c + f, the
    reference's gathered vector feature (c, f). -/
theorem rows_vectors (x1 : Arr SN3x64) (x5 : IVec ⟨2, ![2, 800000]⟩ 32) (e : Fin 800000) (c : Fin 3) (f : Fin 64) :
    Cert.KernelIdeal.Take.rows (shapeCast Cert.KernelIdeal.S50000x192 x1 Cert.KernelIdeal.Gen.shapeCasts_S50000x3x64_S50000x192)
        (Cert.KernelIdeal.Take.sources x5) (ix2 e ⟨64 * c.val + f.val, by have := c.isLt; have := f.isLt; omega⟩)
      = Cert.ReferenceIdeal.Read.val_main_v40 (F := Ideal) x1 x5 (ix3 e c f) := by
  unfold Cert.KernelIdeal.Take.rows Cert.ReferenceIdeal.Read.val_main_v40
  rw [wrap_sources', kernel_gather_eq, reference_gather3_eq]
  generalize Cert.KernelIdeal.Take.wrapIdx (Cert.KernelIdeal.Take.sources x5) = idx
  rw [Cert.LibRows.gatherRows2_apply (by decide), Cert.LibRows.gatherRows3_apply (by decide)]
  generalize Cert.LibRows.clampRow 50000 (by decide) (idx (ix2 e 0)) = r
  refine shapeCast_apply x1 Cert.KernelIdeal.Gen.shapeCasts_S50000x3x64_S50000x192 _ (ix3 r c f) ?_
  rw [Shape.rowMajor_val_three, Shape.rowMajor_val_two]
  have hc : c.val < 3 := c.isLt
  have hf : f.val < 64 := f.isLt
  show (r.val * 3 + c.val) * 64 + f.val = r.val * 192 + (64 * c.val + f.val)
  omega

/-! ## The target nodes -/

/-- The target nodes as a one-column index array, as the reference's first scatter-add takes them … -/
theorem targets_col (x5 : IVec ⟨2, ![2, 800000]⟩ 32) :
    broadcastInDim Cert.KernelIdeal.S800000x1 ![0] Cert.KernelIdeal.Gen.bcast_S800000_S800000x1_0 (Cert.KernelIdeal.Take.targets x5)
      = Cert.ReferenceIdeal.Read.val_main_v32 (F := Ideal) x5 := by
  unfold Cert.KernelIdeal.Take.targets
  unfold Cert.ReferenceIdeal.Read.val_main_v32 Cert.ReferenceIdeal.Read.val_main_v1 Cert.ReferenceIdeal.Read.val_main_v0
  rfl

/-- … and as its second takes them. -/
theorem targets_col' (x5 : IVec ⟨2, ![2, 800000]⟩ 32) :
    broadcastInDim Cert.KernelIdeal.S800000x1 ![0] Cert.KernelIdeal.Gen.bcast_S800000_S800000x1_0 (Cert.KernelIdeal.Take.targets x5)
      = Cert.ReferenceIdeal.Read.val_main_v51 (F := Ideal) x5 := by
  unfold Cert.KernelIdeal.Take.targets
  unfold Cert.ReferenceIdeal.Read.val_main_v51 Cert.ReferenceIdeal.Read.val_main_v1 Cert.ReferenceIdeal.Read.val_main_v0
  rfl

end Cert.Bridge

end
-- ==== Proof.ScatterSplit.lean ====
/-
  One scatter-add of 256-wide rows against two scatter-adds of its parts.

  A row scatter-add works column by column: element (n, q) of the result is the operand's element plus the sum of
  the update rows' column q over the entries whose index names row n. So when the update rows are a 64-wide array
  followed by the three 64-wide channels of a 3 × 64 array, the first 64 columns of the result are the scatter-add
  of the 64-wide array, and the remaining 192 columns, re-laid as 3 × 64, are the scatter-add of the 3 × 64 array
  (the operands being the same constant everywhere). Both sides sum over the same entries in the same order: no
  rearrangement of a sum is involved.
-/
import proofs.«410702_j40475771797587_3_alg».proof.Proof.Gen.KernelIdeal
import proofs.«410702_j40475771797587_3_alg».proof.Proof.Gen.ReferenceIdeal
import proofs.«410702_j40475771797587_3_alg».proof.Proof.Spec
import proofs.«410702_j40475771797587_3_alg».proof.Proof.LibRows
import Idealize.ShloMosaic.Lib.Pipeline.Value
import Idealize.ShloMosaic.Lib.ValueIdx
import Idealize.ShloMosaic.Lib.ValueLayout

noncomputable section

open scoped BigOperators

namespace Cert.ScatterSplit

open Idealize.ShloMosaic Idealize.ShloMosaic.ValueIdx Cert.Msg

/-! ## The three scatter-adds read at one element -/

/-- The 256-wide scatter-add at `(n, q)`: the operand's element plus the sum, over the entries naming row `n`, of
    the update rows' column `q`. -/
private theorem wide_apply (X : Arr ⟨2, ![50000, 256]⟩) (ii : IVec SE1 32) (upd : Arr SE256) (n : Fin 50000)
    (q : Fin 256) :
    Host.scatterAdd (F := Ideal) (φ := .f32) Cert.KernelIdeal.scatter_S50000x256_S800000x1_S800000x256_1_0_0_1 X ii upd (ix2 n q)
      = X (ix2 n q) + ∑ e : Fin 800000, if (ii (ix2 e 0)).toInt = (n.val : Int) then upd (ix2 e q) else 0 :=
  LibRows.scatterAddRows2_apply (w := 32) Cert.KernelIdeal.scatter_S50000x256_S800000x1_S800000x256_1_0_0_1.wf X ii upd n q

/-- The 64-wide scatter-add at `(n, j)`. -/
private theorem scalar_apply (X : Arr SN64) (ii : IVec SE1 32) (upd : Arr SE64) (n : Fin 50000) (j : Fin 64) :
    Host.scatterAdd (F := Ideal) (φ := .f32) Cert.ReferenceIdeal.scatter_S50000x64_S800000x1_S800000x64_1_0_0_1 X ii upd (ix2 n j)
      = X (ix2 n j) + ∑ e : Fin 800000, if (ii (ix2 e 0)).toInt = (n.val : Int) then upd (ix2 e j) else 0 :=
  LibRows.scatterAddRows2_apply (w := 32) Cert.ReferenceIdeal.scatter_S50000x64_S800000x1_S800000x64_1_0_0_1.wf X ii upd n j

/-- The 3 × 64 scatter-add at `(n, c, f)`. -/
private theorem vector_apply (X : Arr SN3x64) (ii : IVec SE1 32) (upd : Arr SE3x64) (n : Fin 50000) (c : Fin 3)
    (f : Fin 64) :
    Host.scatterAdd (F := Ideal) (φ := .f32) Cert.ReferenceIdeal.scatter_S50000x3x64_S800000x1_S800000x3x64_12_0_0_1 X ii upd (ix3 n c f)
      = X (ix3 n c f) + ∑ e : Fin 800000, if (ii (ix2 e 0)).toInt = (n.val : Int) then upd (ix3 e c f) else 0 :=
  LibRows.scatterAddRows3_apply (w := 32) Cert.ReferenceIdeal.scatter_S50000x3x64_S800000x1_S800000x3x64_12_0_0_1.wf X ii upd n c f

/-! ## The 256-wide row layout read at one column -/

/-- Column `j < 64` of a laid-out row is the 64-wide array's column `j`. -/
private theorem cat_left (xs : Arr SE64) (xv : Arr SE3x64) (e : Fin 800000) (j : Fin 64) :
    cat xs xv (ix2 e (⟨j.val, Nat.lt_of_lt_of_le j.isLt (by decide)⟩ : Fin 256)) = xs (ix2 e j) := by
  unfold cat
  rw [dif_pos (show ((ix2 e (⟨j.val, Nat.lt_of_lt_of_le j.isLt (by decide)⟩ : Fin 256)) 1).val < 64 from j.isLt)]

/-- Column `64 + (64 c + f)` of a laid-out row is the 3 × 64 array's element `(c, f)`: the column less 64 has
    quotient `c` and remainder `f` by 64. -/
private theorem cat_right (xs : Arr SE64) (xv : Arr SE3x64) (e : Fin 800000) (c : Fin 3) (f : Fin 64)
    (h : 64 + (64 * c.val + f.val) < 256) :
    cat xs xv (ix2 e (⟨64 + (64 * c.val + f.val), h⟩ : Fin 256)) = xv (ix3 e c f) := by
  have hc := c.isLt
  have hf := f.isLt
  unfold cat
  rw [dif_neg (show ¬ ((ix2 e (⟨64 + (64 * c.val + f.val), h⟩ : Fin 256)) 1).val < 64 from by
    show ¬ 64 + (64 * c.val + f.val) < 64; omega)]
  refine congrArg xv (funext fun a => ?_)
  match a with
  | ⟨0, _⟩ => rfl
  | ⟨1, _⟩ => exact Fin.ext (by show (64 + (64 * c.val + f.val) - 64) / 64 = c.val; omega)
  | ⟨2, _⟩ => exact Fin.ext (by show (64 + (64 * c.val + f.val) - 64) % 64 = f.val; omega)

/-! ## The two parts -/

/-- The first 64 columns: the scalar channel. The kernel program's one scatter-add of the 256-wide rows, sliced to
    its first 64 columns and added to `x0`, is the reference's scatter-add of the 64-wide array added to `x0`. -/
theorem split_scalar (x0 : Arr SN64) (ii : IVec SE1 32) (xs : Arr SE64) (xv : Arr SE3x64) :
    addf (F := Ideal) (φ := .f32) x0
        (extractStridedSlice Cert.KernelIdeal.S50000x64 ![0, 0]
          (Host.scatterAdd (F := Ideal) Cert.KernelIdeal.scatter_S50000x256_S800000x1_S800000x256_1_0_0_1
            (broadcastInDim Cert.KernelIdeal.S50000x256 ![] Cert.KernelIdeal.Gen.bcast_S_S50000x256
              (constant (F := Ideal) Cert.KernelIdeal.S_ .f32 0x00000000#32))
            ii (cat xs xv))
          Cert.KernelIdeal.Gen.slices_S50000x256_S50000x64_0_0)
      = addf (F := Ideal) (φ := .f32) x0
        (Host.scatterAdd (F := Ideal) Cert.ReferenceIdeal.scatter_S50000x64_S800000x1_S800000x64_1_0_0_1
          (broadcastInDim Cert.ReferenceIdeal.S50000x64 ![] Cert.ReferenceIdeal.Gen.bcast_S_S50000x64
            (constant (F := Ideal) Cert.ReferenceIdeal.S_ .f32 0x00000000#32))
          ii xs) := by
  funext i
  obtain ⟨n, j, rfl⟩ : ∃ (n : Fin 50000) (j : Fin 64), i = ix2 n j := ⟨i 0, i 1, eq_ix2 i⟩
  rw [addf_apply, addf_apply]
  refine congrArg (x0 (ix2 n j) + ·) ?_
  have hj := j.isLt
  rw [extractStridedSlice_apply ![0, 0] _ Cert.KernelIdeal.Gen.slices_S50000x256_S50000x64_0_0 (ix2 n j)
    (ix2 n (⟨j.val, Nat.lt_of_lt_of_le j.isLt (by decide)⟩ : Fin 256)) (fun a => match a with
      | ⟨0, _⟩ => by show n.val = 0 + n.val; omega
      | ⟨1, _⟩ => by show j.val = 0 + j.val; omega)]
  rw [wide_apply, scalar_apply]
  refine congrArg₂ (· + ·) rfl (Finset.sum_congr rfl fun e _ => ?_)
  rw [cat_left]

/-- The last 192 columns: the three vector channels. The same scatter-add, sliced to columns 64 … 255, re-laid as
    3 × 64 and added to `x1`, is the reference's scatter-add of the 3 × 64 array added to `x1`. -/
theorem split_vector (x1 : Arr SN3x64) (ii : IVec SE1 32) (xs : Arr SE64) (xv : Arr SE3x64) :
    addf (F := Ideal) (φ := .f32) x1
        (shapeCast Cert.KernelIdeal.S50000x3x64
          (extractStridedSlice Cert.KernelIdeal.S50000x192 ![0, 64]
            (Host.scatterAdd (F := Ideal) Cert.KernelIdeal.scatter_S50000x256_S800000x1_S800000x256_1_0_0_1
              (broadcastInDim Cert.KernelIdeal.S50000x256 ![] Cert.KernelIdeal.Gen.bcast_S_S50000x256
                (constant (F := Ideal) Cert.KernelIdeal.S_ .f32 0x00000000#32))
              ii (cat xs xv))
            Cert.KernelIdeal.Gen.slices_S50000x256_S50000x192_0_64)
          Cert.KernelIdeal.Gen.shapeCasts_S50000x192_S50000x3x64)
      = addf (F := Ideal) (φ := .f32) x1
        (Host.scatterAdd (F := Ideal) Cert.ReferenceIdeal.scatter_S50000x3x64_S800000x1_S800000x3x64_12_0_0_1
          (broadcastInDim Cert.ReferenceIdeal.S50000x3x64 ![] Cert.ReferenceIdeal.Gen.bcast_S_S50000x3x64
            (constant (F := Ideal) Cert.ReferenceIdeal.S_ .f32 0x00000000#32))
          ii xv) := by
  funext i
  obtain ⟨n, c, f, rfl⟩ : ∃ (n : Fin 50000) (c : Fin 3) (f : Fin 64), i = ix3 n c f := ⟨i 0, i 1, i 2, eq_ix3 i⟩
  rw [addf_apply, addf_apply]
  refine congrArg (x1 (ix3 n c f) + ·) ?_
  have hn := n.isLt
  have hc := c.isLt
  have hf := f.isLt
  have hq : 64 * c.val + f.val < 192 := by omega
  have hq' : 64 + (64 * c.val + f.val) < 256 := by omega
  -- element (n, c, f) of the 3 × 64 re-laying is element (n, 64 c + f) of the 192-wide rows
  rw [shapeCast_apply _ Cert.KernelIdeal.Gen.shapeCasts_S50000x192_S50000x3x64 (ix3 n c f)
    (ix2 n (⟨64 * c.val + f.val, hq⟩ : Fin 192)) (by
      rw [Shape.rowMajor_val_two, Shape.rowMajor_val_three]
      show n.val * 192 + (64 * c.val + f.val) = (n.val * 3 + c.val) * 64 + f.val
      omega)]
  -- which is element (n, 64 + (64 c + f)) of the 256-wide rows
  rw [extractStridedSlice_apply ![0, 64] _ Cert.KernelIdeal.Gen.slices_S50000x256_S50000x192_0_64
    (ix2 n (⟨64 * c.val + f.val, hq⟩ : Fin 192)) (ix2 n (⟨64 + (64 * c.val + f.val), hq'⟩ : Fin 256))
    (fun a => match a with
      | ⟨0, _⟩ => by show n.val = 0 + n.val; omega
      | ⟨1, _⟩ => by show 64 + (64 * c.val + f.val) = 64 + (64 * c.val + f.val); rfl)]
  rw [wide_apply, vector_apply]
  refine congrArg₂ (· + ·) rfl (Finset.sum_congr rfl fun e _ => ?_)
  rw [cat_right]

end Cert.ScatterSplit

end
-- ==== Proof.RefPhi.lean ====
/-
  The reference's node stage is the node transform: its two matrix products are the row-against-column sums, its
  bias broadcasts read the bias at the column, and its expansion of the activation — the input times the quotient of
  one by one plus the exponential of the negated input — is h · σ(h).
-/
import proofs.«410702_j40475771797587_3_alg».proof.Proof.Gen.ReferenceIdeal.Read
import proofs.«410702_j40475771797587_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Msg

/-- The bit pattern `0x3F800000` is the real number one. -/
private theorem ofBits_one : Ideal.ofBits .f32 0x3F800000#32 = 1 := by
  simp [Ideal.ofBits, Ideal.ieee, -EReal.coe_mul]; norm_num

/-! The index maps of the reference's layout operations and matrix products, at an index given by its coordinates. -/

private theorem lidx9 (n : Fin 50000) (j : Fin 192) (k : Fin 64) : lidx_main_v9 (ix2 n j) k = ix2 n k := by
  funext a; match a with | ⟨0, _⟩ => rfl | ⟨1, _⟩ => rfl

private theorem ridx9 (n : Fin 50000) (j : Fin 192) (k : Fin 64) : ridx_main_v9 (ix2 n j) k = ix2 k j := by
  funext a; match a with | ⟨0, _⟩ => rfl | ⟨1, _⟩ => rfl

private theorem lidx4 (n : Fin 50000) (k l : Fin 64) : lidx_main_v4 (ix2 n k) l = ix2 n l := by
  funext a; match a with | ⟨0, _⟩ => rfl | ⟨1, _⟩ => rfl

private theorem ridx4 (n : Fin 50000) (k l : Fin 64) : ridx_main_v4 (ix2 n k) l = ix2 l k := by
  funext a; match a with | ⟨0, _⟩ => rfl | ⟨1, _⟩ => rfl

private theorem idx56 (n : Fin 50000) (k : Fin 64) : idx_main_v5 (idx_main_v6 (ix2 n k)) = ix1 k := by
  funext a; match a with | ⟨0, _⟩ => rfl

private theorem idx1011 (n : Fin 50000) (j : Fin 192) : idx_main_v10 (idx_main_v11 (ix2 n j)) = ix1 j := by
  funext a; match a with | ⟨0, _⟩ => rfl

/-- The reference's 192-channel node array is the node transform of the same arguments, the two biases as one-row
    matrices. -/
theorem phi_ref (x0 : Arr SN64) (x6 : Arr S64x64) (x7 : Arr ⟨1, ![64]⟩) (x8 : Arr S64x192) (x9 : Arr ⟨1, ![192]⟩) :
    val_main_v12 (F := Ideal) x0 x6 x7 x8 x9 = phiOut x0 x6 (row1 x7) x8 (row1 x9) := by
  funext i
  obtain ⟨n, j, rfl⟩ : ∃ n j, i = ix2 n j := ⟨i 0, i 1, eq_ix2 i⟩
  -- Read the result at node `n`, channel `j`: each operation at its index, the composed index maps by coordinates.
  rw [val_main_v12_apply, val_main_v9_apply, val_main_v11_apply, val_main_v10_apply]
  simp only [val_main_v8_apply, val_main_call0_v5_apply, val_main_call0_v4_apply, val_main_call0_cst_0_apply,
    val_main_call0_v3_apply, val_main_call0_v2_apply, val_main_call0_cst_apply, val_main_call0_v1_apply,
    val_main_call0_v0_apply, val_main_v7_apply, val_main_v4_apply, val_main_v6_apply, val_main_v5_apply,
    lidx9, ridx9, lidx4, ridx4, idx56, idx1011]
  -- On the extended reals the constant is one, and one over one plus the exponential of `-h` is the logistic
  -- function of `h` by definition: the two sides are the same sum.
  simp only [Ideal.addf_def, Ideal.mulf_def, Ideal.hostDivf_def, Ideal.ofBits_def, Ideal.hostUnary_exp_def,
    Ideal.hostNegf_def, Ideal.negf_def, ofBits_one]
  rfl

end Cert.ReferenceIdeal.RefValue

end
-- ==== Proof.RefEdge.lean ====
/-
  The reference's edge stages are the edge transform. Its filter is the radial product plus the bias, times the
  cutoff broadcast along the channels; the filtered gathered row is sliced into thirds; the scalar message is the
  first third, and the vector message is the gathered vector feature times the second third plus the last third times
  the unit-vector component (a product the edge transform writes in the other order: multiplication on the extended
  reals is commutative).
-/
import proofs.«410702_j40475771797587_3_alg».proof.Proof.Gen.ReferenceIdeal.Read
import proofs.«410702_j40475771797587_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Msg

/-! ## The composed index functions of the reference, at coordinates -/

/-- The left operand of the radial product is read at (edge, radial feature). -/
private theorem lidx13 (e : Fin 800000) (j : Fin 192) (k : Fin 32) : lidx_main_v13 (ix2 e j) k = ix2 e k := by
  funext a; match a with | ⟨0, _⟩ => rfl | ⟨1, _⟩ => rfl

/-- The right operand of the radial product is read at (radial feature, channel). -/
private theorem ridx13 (e : Fin 800000) (j : Fin 192) (k : Fin 32) : ridx_main_v13 (ix2 e j) k = ix2 k j := by
  funext a; match a with | ⟨0, _⟩ => rfl | ⟨1, _⟩ => rfl

/-- The bias, broadcast along the edges, is read at the channel. -/
private theorem idx1415 (e : Fin 800000) (j : Fin 192) : idx_main_v14 (idx_main_v15 (ix2 e j)) = ix1 j := by
  funext a; match a with | ⟨0, _⟩ => rfl

/-- The cutoff, broadcast along the channels, is read at the edge. -/
private theorem idx1718 (e : Fin 800000) (j : Fin 192) : idx_main_v17 (idx_main_v18 (ix2 e j)) = ix1 e := by
  funext a; match a with | ⟨0, _⟩ => rfl

/-- The first third of a row of 192: columns 0 … 63. -/
private theorem idx28 (e : Fin 800000) (f : Fin 64) :
    idx_main_v28 (ix2 e f) = ix2 e ⟨f.val, by have := f.isLt; omega⟩ := by
  funext a; match a with | ⟨0, _⟩ => rfl | ⟨1, _⟩ => rfl

/-- The second third of a row of 192, broadcast along the three channels: columns 64 … 127. -/
private theorem idx294142 (e : Fin 800000) (c : Fin 3) (f : Fin 64) :
    idx_main_v29 (idx_main_v41 (idx_main_v42 (ix3 e c f))) = ix2 e ⟨64 + f.val, by have := f.isLt; omega⟩ := by
  funext a; match a with | ⟨0, _⟩ => rfl | ⟨1, _⟩ => rfl

/-- The last third of a row of 192, broadcast along the three channels: columns 128 … 191. -/
private theorem idx304446 (e : Fin 800000) (c : Fin 3) (f : Fin 64) :
    idx_main_v30 (idx_main_v44 (idx_main_v46 (ix3 e c f))) = ix2 e ⟨128 + f.val, by have := f.isLt; omega⟩ := by
  funext a; match a with | ⟨0, _⟩ => rfl | ⟨1, _⟩ => rfl

/-- The unit vector, broadcast along the features, is read at (edge, channel). -/
private theorem idx4547 (e : Fin 800000) (c : Fin 3) (f : Fin 64) :
    idx_main_v45 (idx_main_v47 (ix3 e c f)) = ix2 e c := by
  funext a; match a with | ⟨0, _⟩ => rfl | ⟨1, _⟩ => rfl

/-! ## The filtered gathered row -/

/-- The reference's filtered gathered row, at edge `e` and channel `j`, is the edge transform's. -/
private theorem v27_at (x0 : Arr SN64) (x2 : Arr SE32) (x3 : Arr ⟨1, ![800000]⟩) (x5 : IVec ⟨2, ![2, 800000]⟩ 32) (x6 : Arr S64x64)
    (x7 : Arr ⟨1, ![64]⟩) (x8 : Arr S64x192) (x9 : Arr ⟨1, ![192]⟩) (x10 : Arr S32x192) (x11 : Arr ⟨1, ![192]⟩) (e : Fin 800000) (j : Fin 192) :
    val_main_v27 (F := Ideal) x0 x2 x3 x5 x6 x7 x8 x9 x10 x11 (ix2 e j)
      = msg x2 (col1 x3) (val_main_v26 (F := Ideal) x0 x5 x6 x7 x8 x9) x10 (row1 x11) e j := by
  rw [val_main_v27_apply, val_main_v19_apply, val_main_v16_apply, val_main_v18_apply, val_main_v17_apply,
    val_main_v15_apply, val_main_v14_apply, val_main_v13_apply, idx1415, idx1718]
  simp only [lidx13, ridx13, Ideal.mulf_def, Ideal.addf_def]
  rfl

/-- The reference's scalar message is the edge transform's, over the reference's own gathered node rows. -/
theorem msgS_ref (x0 : Arr SN64) (x2 : Arr SE32) (x3 : Arr ⟨1, ![800000]⟩) (x5 : IVec ⟨2, ![2, 800000]⟩ 32) (x6 : Arr S64x64)
    (x7 : Arr ⟨1, ![64]⟩) (x8 : Arr S64x192) (x9 : Arr ⟨1, ![192]⟩) (x10 : Arr S32x192) (x11 : Arr ⟨1, ![192]⟩) :
    val_main_v28 (F := Ideal) x0 x2 x3 x5 x6 x7 x8 x9 x10 x11
      = msgS x2 (col1 x3) (val_main_v26 (F := Ideal) x0 x5 x6 x7 x8 x9) x10 (row1 x11) := by
  funext i
  obtain ⟨e, f, rfl⟩ : ∃ e f, i = ix2 e f := ⟨i 0, i 1, eq_ix2 i⟩
  rw [val_main_v28_apply, idx28, v27_at]
  rfl

/-- The reference's vector message is the edge transform's, over the reference's gathered node rows and ANY 192-wide
    array `vg` that holds the reference's gathered vector features channel after channel. -/
theorem msgV_ref (x0 : Arr SN64) (x1 : Arr SN3x64) (x2 : Arr SE32) (x3 : Arr ⟨1, ![800000]⟩) (x4 : Arr SE3)
    (x5 : IVec ⟨2, ![2, 800000]⟩ 32) (x6 : Arr S64x64) (x7 : Arr ⟨1, ![64]⟩) (x8 : Arr S64x192) (x9 : Arr ⟨1, ![192]⟩)
    (x10 : Arr S32x192) (x11 : Arr ⟨1, ![192]⟩) (vg : Arr SE192)
    (hvg : ∀ (e : Fin 800000) (c : Fin 3) (f : Fin 64),
      vg (ix2 e ⟨64 * c.val + f.val, by have := c.isLt; have := f.isLt; omega⟩) = val_main_v40 (F := Ideal) x1 x5 (ix3 e c f)) :
    val_main_v49 (F := Ideal) x0 x1 x2 x3 x4 x5 x6 x7 x8 x9 x10 x11
      = msgV x2 (col1 x3) x4 (val_main_v26 (F := Ideal) x0 x5 x6 x7 x8 x9) vg x10 (row1 x11) := by
  funext i
  obtain ⟨e, c, f, rfl⟩ : ∃ e c f, i = ix3 e c f := ⟨i 0, i 1, i 2, eq_ix3 i⟩
  rw [val_main_v49_apply, val_main_v43_apply, val_main_v48_apply, val_main_v42_apply, val_main_v41_apply,
    val_main_v29_apply, val_main_v46_apply, val_main_v44_apply, val_main_v30_apply, val_main_v47_apply,
    val_main_v45_apply, idx294142, idx304446, idx4547, v27_at, v27_at, ← hvg e c f]
  simp only [Ideal.mulf_def, Ideal.addf_def]
  rw [mul_comm (msg x2 (col1 x3) (val_main_v26 (F := Ideal) x0 x5 x6 x7 x8 x9) x10 (row1 x11) e ⟨128 + f.val, _⟩) (x4 (ix2 e c))]
  rfl

end Cert.ReferenceIdeal.RefValue

end
-- ==== Proof.KernelValue.lean ====
/-
  The two results of the kernel program as the reference's own stages of the launch arguments.

  Read back through the program, the first region's result array is the node transform of the arguments, which is
  the reference's 192-channel node stage. Under the precondition every source node is in range, so the two row
  lookups are plain gathers, the reference's own; the second region's result array is then the edge transform of
  the reference's gathered arrays, that is, the reference's scalar message followed by its three vector-message
  channels. One scatter-add of those 256-wide rows at the target nodes, sliced and added to the first two
  arguments, is the reference's two scatter-adds added to the same arguments.
-/
import proofs.«410702_j40475771797587_3_alg».proof.Defs
import proofs.«410702_j40475771797587_3_alg».proof.Proof.HostGlue
import proofs.«410702_j40475771797587_3_alg».proof.Proof.PhiValue
import proofs.«410702_j40475771797587_3_alg».proof.Proof.EdgeValue
import proofs.«410702_j40475771797587_3_alg».proof.Proof.IndexRange
import proofs.«410702_j40475771797587_3_alg».proof.Proof.Bridge
import proofs.«410702_j40475771797587_3_alg».proof.Proof.ScatterSplit
import proofs.«410702_j40475771797587_3_alg».proof.Proof.RefPhi
import proofs.«410702_j40475771797587_3_alg».proof.Proof.RefEdge

set_option maxRecDepth 16384

noncomputable section

namespace Cert.KernelIdeal.Results

open Cert.KernelIdeal Cert.KernelIdeal.Gen
open Idealize.ShloMosaic Idealize.ShloMosaic.TcCoe Idealize.ShloMosaic.ValueIdx Idealize.SL.Sem
open Cert.ReferenceIdeal.Read (val_main_v12 val_main_v25 val_main_v26 val_main_v28 val_main_v49 val_main_v53 val_main_v54)

variable (m : (ℓ : Loc nD τ sig) → Buf (Elt Ideal) ℓ) (ρ : Dev nD → PrngReg)

/-- The first region's result array is the reference's node stage of the launch arguments. -/
theorem phi_value (c : Dev nD) :
    (dat0 (V1 m ρ) c).arrAt 5 cfg0.N
      = val_main_v12 (F := Ideal) (m ((c : Thread nD τ).loc main_arg0)) (m ((c : Thread nD τ).loc main_arg6))
          (m ((c : Thread nD τ).loc main_arg7)) (m ((c : Thread nD τ).loc main_arg8)) (m ((c : Thread nD τ).loc main_arg9)) := by
  rw [Cert.ReferenceIdeal.RefValue.phi_ref, ← Cert.Bridge.row_64, ← Cert.Bridge.row_192]
  rw [← Glue.entry0_s m ρ c, ← Glue.entry0_W1 m ρ c, ← Glue.entry0_W2 m ρ c, ← Glue.entry0_b1 m ρ c, ← Glue.entry0_b2 m ρ c]
  exact PhiValue.phi_arr (V1 m ρ) c

/-- Under the precondition every source node, counted from the end when negative, names a node row. -/
theorem sources_ok (hpre : Cert.Pre_KernelIdeal m) (c : Dev nD) :
    ∀ e : Fin 800000, -50000 ≤ (Take.sources (m ((c : Thread nD τ).loc main_arg5)) (ix1 e)).toInt
      ∧ (Take.sources (m ((c : Thread nD τ).loc main_arg5)) (ix1 e)).toInt < 50000 :=
  Take.sources_range _ _ _ _ _ _ _ _ _ _ _ _ (hpre c)

/-- The second region's result array is the reference's scalar message followed by its vector message. -/
theorem edge_value (hpre : Cert.Pre_KernelIdeal m) (c : Dev nD) :
    (dat1 (V5 m ρ) c).arrAt 7 cfg1.N
      = Cert.Msg.cat
          (val_main_v28 (F := Ideal) (m ((c : Thread nD τ).loc main_arg0)) (m ((c : Thread nD τ).loc main_arg2))
            (m ((c : Thread nD τ).loc main_arg3)) (m ((c : Thread nD τ).loc main_arg5)) (m ((c : Thread nD τ).loc main_arg6))
            (m ((c : Thread nD τ).loc main_arg7)) (m ((c : Thread nD τ).loc main_arg8)) (m ((c : Thread nD τ).loc main_arg9))
            (m ((c : Thread nD τ).loc main_arg10)) (m ((c : Thread nD τ).loc main_arg11)))
          (val_main_v49 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11))) := by
  have hj := sources_ok m hpre c
  rw [Cert.ReferenceIdeal.RefValue.msgS_ref,
    Cert.ReferenceIdeal.RefValue.msgV_ref _ _ _ _ _ _ _ _ _ _ _ _
      (Take.rows (shapeCast S50000x192 (m ((c : Thread nD τ).loc main_arg1)) shapeCasts_S50000x3x64_S50000x192)
        (Take.sources (m ((c : Thread nD τ).loc main_arg5))))
      (Cert.Bridge.rows_vectors _ _)]
  show _ = Cert.Msg.edgeOut _ _ _ _ _ _ _
  rw [← Cert.Bridge.col_800000, ← Cert.Bridge.row_192]
  have hpg : val_main_v26 (F := Ideal) (m ((c : Thread nD τ).loc main_arg0)) (m ((c : Thread nD τ).loc main_arg5))
      (m ((c : Thread nD τ).loc main_arg6)) (m ((c : Thread nD τ).loc main_arg7)) (m ((c : Thread nD τ).loc main_arg8))
      (m ((c : Thread nD τ).loc main_arg9)) = V5 m ρ c main_v10 := by
    rw [Glue.entry1_pg m ρ c, phi_value m ρ c, Take.take_eq_rows _ _ hj, Cert.Bridge.rows_nodes]
    rfl
  have hvg : Take.rows (shapeCast S50000x192 (m ((c : Thread nD τ).loc main_arg1)) shapeCasts_S50000x3x64_S50000x192)
      (Take.sources (m ((c : Thread nD τ).loc main_arg5))) = V5 m ρ c main_v11 := by
    rw [Glue.entry1_vg m ρ c, Take.take_eq_rows _ _ hj]
  rw [hpg, hvg, ← Glue.entry1_rad m ρ c, ← Glue.entry1_fc m ρ c, ← Glue.entry1_uv m ρ c, ← Glue.entry1_Wr m ρ c,
    ← Glue.entry1_br m ρ c]
  exact EdgeValue.edge_arr (V5 m ρ) c

/-- The first result after the run is the reference's first result stage of the launch arguments. -/
theorem result_s (hpre : Cert.Pre_KernelIdeal m) (c : Dev nD) :
    W7 m ρ c (Proc.devRef .tc main_v19)
      = val_main_v53 (F := Ideal) (m ((c : Thread nD τ).loc main_arg0)) (m ((c : Thread nD τ).loc main_arg2))
          (m ((c : Thread nD τ).loc main_arg3)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) := by
  rw [Glue.result_s m ρ c, edge_value m ρ hpre c]
  unfold Glue.outS Glue.summed
  rw [Cert.Bridge.targets_col]
  exact Cert.ScatterSplit.split_scalar _ _ _ _

/-- The second result after the run is the reference's second result stage of the launch arguments. -/
theorem result_v (hpre : Cert.Pre_KernelIdeal m) (c : Dev nD) :
    W7 m ρ c (Proc.devRef .tc main_v20)
      = val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  rw [Glue.result_v m ρ c, edge_value m ρ hpre c]
  unfold Glue.outV Glue.summed
  rw [Cert.Bridge.targets_col']
  exact Cert.ScatterSplit.split_vector _ _ _ _

end Cert.KernelIdeal.Results

end
-- ==== Proof.lean ====
/-
  Message passing on a graph: the kernel program against the reference, over the extended reals.

  Both programs compute, for 50000 nodes and 800000 edges, a node transform (two affine maps around the
  activation h · σ(h)), gather its rows and the nodes' vector features at every edge's source node, multiply by a
  radial filter, combine the vector features with the edge's unit vector, and add every edge's message onto its
  target node. The kernel program does the node transform and the per-edge arithmetic in two gridded regions on
  row blocks, looks the source rows up with a range test, and scatter-adds ONE 256-wide array that it slices
  afterwards; the reference does everything on whole arrays, gathers with clamping, and scatter-adds the scalar
  and the vector messages apart. The precondition is that every float input is finite and that every source-node
  index, counted from the end when negative, names a node row; then the range test passes everywhere and the two
  lookups agree.

  The frames: the two kernel programs' frames are generated; the reference's frame is its generated run with the
  results forgotten. The idealization rewrote nothing, so the preservation claim is trivial. The algebraic claim:
  the kernel program's run leaves each result at the reference's own result stage of the launch arguments
  (modules KernelRun, HostGlue, PhiValue, EdgeValue, IndexRange, Bridge, ScatterSplit, RefPhi, RefEdge,
  KernelValue), and the reference's generated run leaves the same stages of its own arguments, which agree.
-/
import proofs.«410702_j40475771797587_3_alg».proof.Defs
import proofs.«410702_j40475771797587_3_alg».proof.Proof.Gen.Kernel
import proofs.«410702_j40475771797587_3_alg».proof.Proof.Gen.Kernel.Frame
import proofs.«410702_j40475771797587_3_alg».proof.Proof.Gen.KernelIdeal
import proofs.«410702_j40475771797587_3_alg».proof.Proof.Gen.KernelIdeal.Frame
import proofs.«410702_j40475771797587_3_alg».proof.Proof.Gen.ReferenceIdeal
import proofs.«410702_j40475771797587_3_alg».proof.Proof.Gen.ReferenceIdeal.Run
import proofs.«410702_j40475771797587_3_alg».proof.Proof.Gen.ReferenceIdeal.Read
import proofs.«410702_j40475771797587_3_alg».proof.Proof.Gen.Pre_finite_inputs
import proofs.«410702_j40475771797587_3_alg».proof.Proof.KernelRun
import proofs.«410702_j40475771797587_3_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results forgotten. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with each result at the reference's result stage of the kernel program's launch arguments. -/
theorem algebraic : Cert.algebraic_KernelIdeal_ReferenceIdeal := by
  intro m ρ m' ρ' hpre hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Results.result_s m ρ hpre c),
        (h c).2.1.trans (Cert.KernelIdeal.Results.result_v m ρ hpre c), (h c).2.2⟩)
      (Cert.KernelIdeal.Results.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v53_eq]
      obtain ⟨h0, h1, h2, h3, h4, h5, h6, h7, h8, h9, h10, h11⟩ := hagree c
      rw [h0, h2, h3, h5, h6, h7, h8, h9, h10, h11]
    · rw [Cert.ReferenceIdeal.Read.val_main_v54_eq]
      obtain ⟨h0, h1, h2, h3, h4, h5, h6, h7, h8, h9, h10, h11⟩ := hagree c
      rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
